-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S512x256 : Shape := ⟨2, ![512, 256]⟩
abbrev S1x256 : Shape := ⟨2, ![1, 256]⟩
abbrev S16x256 : Shape := ⟨2, ![16, 256]⟩
abbrev S_ : Shape := ⟨0, ![]⟩
abbrev S16 : Shape := ⟨1, ![16]⟩
abbrev S256 : Shape := ⟨1, ![256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S1x256, .f32⟩
  | .local _ .vmem, ⟨1, _⟩ => ⟨S512x256, .f32⟩
  | .local _ .vmem, ⟨2, _⟩ => ⟨S16x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v204 : Index := Scalar.indexCast v2
  let c0_137 : Index := 0#32
  ![v204.toNat, 0]
def k0_off2 (d0 : Dev nD) (c1_i32_139 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c1_i32_139
  let c16_i32_140 : BitVec 32 := 16#32
  let c0_i32_141 : BitVec 32 := 0#32
  let v209 : BitVec 1 := Scalar.cmpi .eq c16_i32_140 c0_i32_141
  let c1_i32_142 : BitVec 32 := 1#32
  let v210 : BitVec 32 := Scalar.select v209 c1_i32_142 c16_i32_140
  let v211 : BitVec 32 := Scalar.remsi v208 v210
  let c0_i32_144 : BitVec 32 := 0#32
  let v213 : BitVec 1 := Scalar.cmpi .slt v211 c0_i32_144
  let c0_i32_145 : BitVec 32 := 0#32
  let v214 : BitVec 1 := Scalar.cmpi .slt v210 c0_i32_145
  let v215 : BitVec 1 := Scalar.xori v213 v214
  let c0_i32_143 : BitVec 32 := 0#32
  let v212 : BitVec 1 := Scalar.cmpi .ne v211 c0_i32_143
  let v216 : BitVec 1 := Scalar.andi v215 v212
  let v217 : BitVec 32 := Scalar.addi v211 v210
  let v218 : BitVec 32 := Scalar.select v216 v217 v211
  ![v218.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_155 : BitVec 32 := 0#32
  ![v2.toNat, 0]
def k0_dev16 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_146 : BitVec 32 := 1#32
  let v219 : BitVec 32 := Scalar.addi v2 c1_i32_146
  let c16_i32_147 : BitVec 32 := 16#32
  let c0_i32_148 : BitVec 32 := 0#32
  let v220 : BitVec 1 := Scalar.cmpi .eq c16_i32_147 c0_i32_148
  let c1_i32_149 : BitVec 32 := 1#32
  let v221 : BitVec 32 := Scalar.select v220 c1_i32_149 c16_i32_147
  let v222 : BitVec 32 := Scalar.remsi v219 v221
  let c0_i32_151 : BitVec 32 := 0#32
  let v224 : BitVec 1 := Scalar.cmpi .slt v222 c0_i32_151
  let c0_i32_152 : BitVec 32 := 0#32
  let v225 : BitVec 1 := Scalar.cmpi .slt v221 c0_i32_152
  let v226 : BitVec 1 := Scalar.xori v224 v225
  let c0_i32_150 : BitVec 32 := 0#32
  let v223 : BitVec 1 := Scalar.cmpi .ne v222 c0_i32_150
  let v227 : BitVec 1 := Scalar.andi v226 v223
  let v228 : BitVec 32 := Scalar.addi v222 v221
  let v229 : BitVec 32 := Scalar.select v227 v228 v222
  let c1_i32_153 : BitVec 32 := 1#32
  let v230 : BitVec 32 := Scalar.muli v229 c1_i32_153
  let v231 : BitVec 32 := Scalar.addi c0_i32_154 v230
  v231.toNat
def k0_dev17 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_164 : BitVec 32 := 2#32
  let v249 : BitVec 32 := Scalar.addi v2 c2_i32_164
  let c16_i32_165 : BitVec 32 := 16#32
  let c0_i32_166 : BitVec 32 := 0#32
  let v250 : BitVec 1 := Scalar.cmpi .eq c16_i32_165 c0_i32_166
  let c1_i32_167 : BitVec 32 := 1#32
  let v251 : BitVec 32 := Scalar.select v250 c1_i32_167 c16_i32_165
  let v252 : BitVec 32 := Scalar.remsi v249 v251
  let c0_i32_169 : BitVec 32 := 0#32
  let v254 : BitVec 1 := Scalar.cmpi .slt v252 c0_i32_169
  let c0_i32_170 : BitVec 32 := 0#32
  let v255 : BitVec 1 := Scalar.cmpi .slt v251 c0_i32_170
  let v256 : BitVec 1 := Scalar.xori v254 v255
  let c0_i32_168 : BitVec 32 := 0#32
  let v253 : BitVec 1 := Scalar.cmpi .ne v252 c0_i32_168
  let v257 : BitVec 1 := Scalar.andi v256 v253
  let v258 : BitVec 32 := Scalar.addi v252 v251
  let v259 : BitVec 32 := Scalar.select v257 v258 v252
  let c1_i32_171 : BitVec 32 := 1#32
  let v260 : BitVec 32 := Scalar.muli v259 c1_i32_171
  let v261 : BitVec 32 := Scalar.addi c0_i32_172 v260
  v261.toNat
def k0_dev18 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_182 : BitVec 32 := 3#32
  let v279 : BitVec 32 := Scalar.addi v2 c3_i32_182
  let c16_i32_183 : BitVec 32 := 16#32
  let c0_i32_184 : BitVec 32 := 0#32
  let v280 : BitVec 1 := Scalar.cmpi .eq c16_i32_183 c0_i32_184
  let c1_i32_185 : BitVec 32 := 1#32
  let v281 : BitVec 32 := Scalar.select v280 c1_i32_185 c16_i32_183
  let v282 : BitVec 32 := Scalar.remsi v279 v281
  let c0_i32_187 : BitVec 32 := 0#32
  let v284 : BitVec 1 := Scalar.cmpi .slt v282 c0_i32_187
  let c0_i32_188 : BitVec 32 := 0#32
  let v285 : BitVec 1 := Scalar.cmpi .slt v281 c0_i32_188
  let v286 : BitVec 1 := Scalar.xori v284 v285
  let c0_i32_186 : BitVec 32 := 0#32
  let v283 : BitVec 1 := Scalar.cmpi .ne v282 c0_i32_186
  let v287 : BitVec 1 := Scalar.andi v286 v283
  let v288 : BitVec 32 := Scalar.addi v282 v281
  let v289 : BitVec 32 := Scalar.select v287 v288 v282
  let c1_i32_189 : BitVec 32 := 1#32
  let v290 : BitVec 32 := Scalar.muli v289 c1_i32_189
  let v291 : BitVec 32 := Scalar.addi c0_i32_190 v290
  v291.toNat
def k0_dev19 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_200 : BitVec 32 := 4#32
  let v309 : BitVec 32 := Scalar.addi v2 c4_i32_200
  let c16_i32_201 : BitVec 32 := 16#32
  let c0_i32_202 : BitVec 32 := 0#32
  let v310 : BitVec 1 := Scalar.cmpi .eq c16_i32_201 c0_i32_202
  let c1_i32_203 : BitVec 32 := 1#32
  let v311 : BitVec 32 := Scalar.select v310 c1_i32_203 c16_i32_201
  let v312 : BitVec 32 := Scalar.remsi v309 v311
  let c0_i32_205 : BitVec 32 := 0#32
  let v314 : BitVec 1 := Scalar.cmpi .slt v312 c0_i32_205
  let c0_i32_206 : BitVec 32 := 0#32
  let v315 : BitVec 1 := Scalar.cmpi .slt v311 c0_i32_206
  let v316 : BitVec 1 := Scalar.xori v314 v315
  let c0_i32_204 : BitVec 32 := 0#32
  let v313 : BitVec 1 := Scalar.cmpi .ne v312 c0_i32_204
  let v317 : BitVec 1 := Scalar.andi v316 v313
  let v318 : BitVec 32 := Scalar.addi v312 v311
  let v319 : BitVec 32 := Scalar.select v317 v318 v312
  let c1_i32_207 : BitVec 32 := 1#32
  let v320 : BitVec 32 := Scalar.muli v319 c1_i32_207
  let v321 : BitVec 32 := Scalar.addi c0_i32_208 v320
  v321.toNat
def k0_dev20 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_218 : BitVec 32 := 5#32
  let v339 : BitVec 32 := Scalar.addi v2 c5_i32_218
  let c16_i32_219 : BitVec 32 := 16#32
  let c0_i32_220 : BitVec 32 := 0#32
  let v340 : BitVec 1 := Scalar.cmpi .eq c16_i32_219 c0_i32_220
  let c1_i32_221 : BitVec 32 := 1#32
  let v341 : BitVec 32 := Scalar.select v340 c1_i32_221 c16_i32_219
  let v342 : BitVec 32 := Scalar.remsi v339 v341
  let c0_i32_223 : BitVec 32 := 0#32
  let v344 : BitVec 1 := Scalar.cmpi .slt v342 c0_i32_223
  let c0_i32_224 : BitVec 32 := 0#32
  let v345 : BitVec 1 := Scalar.cmpi .slt v341 c0_i32_224
  let v346 : BitVec 1 := Scalar.xori v344 v345
  let c0_i32_222 : BitVec 32 := 0#32
  let v343 : BitVec 1 := Scalar.cmpi .ne v342 c0_i32_222
  let v347 : BitVec 1 := Scalar.andi v346 v343
  let v348 : BitVec 32 := Scalar.addi v342 v341
  let v349 : BitVec 32 := Scalar.select v347 v348 v342
  let c1_i32_225 : BitVec 32 := 1#32
  let v350 : BitVec 32 := Scalar.muli v349 c1_i32_225
  let v351 : BitVec 32 := Scalar.addi c0_i32_226 v350
  v351.toNat
def k0_dev21 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_236 : BitVec 32 := 6#32
  let v369 : BitVec 32 := Scalar.addi v2 c6_i32_236
  let c16_i32_237 : BitVec 32 := 16#32
  let c0_i32_238 : BitVec 32 := 0#32
  let v370 : BitVec 1 := Scalar.cmpi .eq c16_i32_237 c0_i32_238
  let c1_i32_239 : BitVec 32 := 1#32
  let v371 : BitVec 32 := Scalar.select v370 c1_i32_239 c16_i32_237
  let v372 : BitVec 32 := Scalar.remsi v369 v371
  let c0_i32_241 : BitVec 32 := 0#32
  let v374 : BitVec 1 := Scalar.cmpi .slt v372 c0_i32_241
  let c0_i32_242 : BitVec 32 := 0#32
  let v375 : BitVec 1 := Scalar.cmpi .slt v371 c0_i32_242
  let v376 : BitVec 1 := Scalar.xori v374 v375
  let c0_i32_240 : BitVec 32 := 0#32
  let v373 : BitVec 1 := Scalar.cmpi .ne v372 c0_i32_240
  let v377 : BitVec 1 := Scalar.andi v376 v373
  let v378 : BitVec 32 := Scalar.addi v372 v371
  let v379 : BitVec 32 := Scalar.select v377 v378 v372
  let c1_i32_243 : BitVec 32 := 1#32
  let v380 : BitVec 32 := Scalar.muli v379 c1_i32_243
  let v381 : BitVec 32 := Scalar.addi c0_i32_244 v380
  v381.toNat
def k0_dev22 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_254 : BitVec 32 := 7#32
  let v399 : BitVec 32 := Scalar.addi v2 c7_i32_254
  let c16_i32_255 : BitVec 32 := 16#32
  let c0_i32_256 : BitVec 32 := 0#32
  let v400 : BitVec 1 := Scalar.cmpi .eq c16_i32_255 c0_i32_256
  let c1_i32_257 : BitVec 32 := 1#32
  let v401 : BitVec 32 := Scalar.select v400 c1_i32_257 c16_i32_255
  let v402 : BitVec 32 := Scalar.remsi v399 v401
  let c0_i32_259 : BitVec 32 := 0#32
  let v404 : BitVec 1 := Scalar.cmpi .slt v402 c0_i32_259
  let c0_i32_260 : BitVec 32 := 0#32
  let v405 : BitVec 1 := Scalar.cmpi .slt v401 c0_i32_260
  let v406 : BitVec 1 := Scalar.xori v404 v405
  let c0_i32_258 : BitVec 32 := 0#32
  let v403 : BitVec 1 := Scalar.cmpi .ne v402 c0_i32_258
  let v407 : BitVec 1 := Scalar.andi v406 v403
  let v408 : BitVec 32 := Scalar.addi v402 v401
  let v409 : BitVec 32 := Scalar.select v407 v408 v402
  let c1_i32_261 : BitVec 32 := 1#32
  let v410 : BitVec 32 := Scalar.muli v409 c1_i32_261
  let v411 : BitVec 32 := Scalar.addi c0_i32_262 v410
  v411.toNat
def k0_dev23 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_272 : BitVec 32 := 8#32
  let v429 : BitVec 32 := Scalar.addi v2 c8_i32_272
  let c16_i32_273 : BitVec 32 := 16#32
  let c0_i32_274 : BitVec 32 := 0#32
  let v430 : BitVec 1 := Scalar.cmpi .eq c16_i32_273 c0_i32_274
  let c1_i32_275 : BitVec 32 := 1#32
  let v431 : BitVec 32 := Scalar.select v430 c1_i32_275 c16_i32_273
  let v432 : BitVec 32 := Scalar.remsi v429 v431
  let c0_i32_277 : BitVec 32 := 0#32
  let v434 : BitVec 1 := Scalar.cmpi .slt v432 c0_i32_277
  let c0_i32_278 : BitVec 32 := 0#32
  let v435 : BitVec 1 := Scalar.cmpi .slt v431 c0_i32_278
  let v436 : BitVec 1 := Scalar.xori v434 v435
  let c0_i32_276 : BitVec 32 := 0#32
  let v433 : BitVec 1 := Scalar.cmpi .ne v432 c0_i32_276
  let v437 : BitVec 1 := Scalar.andi v436 v433
  let v438 : BitVec 32 := Scalar.addi v432 v431
  let v439 : BitVec 32 := Scalar.select v437 v438 v432
  let c1_i32_279 : BitVec 32 := 1#32
  let v440 : BitVec 32 := Scalar.muli v439 c1_i32_279
  let v441 : BitVec 32 := Scalar.addi c0_i32_280 v440
  v441.toNat
def k0_dev24 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_290 : BitVec 32 := 9#32
  let v459 : BitVec 32 := Scalar.addi v2 c9_i32_290
  let c16_i32_291 : BitVec 32 := 16#32
  let c0_i32_292 : BitVec 32 := 0#32
  let v460 : BitVec 1 := Scalar.cmpi .eq c16_i32_291 c0_i32_292
  let c1_i32_293 : BitVec 32 := 1#32
  let v461 : BitVec 32 := Scalar.select v460 c1_i32_293 c16_i32_291
  let v462 : BitVec 32 := Scalar.remsi v459 v461
  let c0_i32_295 : BitVec 32 := 0#32
  let v464 : BitVec 1 := Scalar.cmpi .slt v462 c0_i32_295
  let c0_i32_296 : BitVec 32 := 0#32
  let v465 : BitVec 1 := Scalar.cmpi .slt v461 c0_i32_296
  let v466 : BitVec 1 := Scalar.xori v464 v465
  let c0_i32_294 : BitVec 32 := 0#32
  let v463 : BitVec 1 := Scalar.cmpi .ne v462 c0_i32_294
  let v467 : BitVec 1 := Scalar.andi v466 v463
  let v468 : BitVec 32 := Scalar.addi v462 v461
  let v469 : BitVec 32 := Scalar.select v467 v468 v462
  let c1_i32_297 : BitVec 32 := 1#32
  let v470 : BitVec 32 := Scalar.muli v469 c1_i32_297
  let v471 : BitVec 32 := Scalar.addi c0_i32_298 v470
  v471.toNat
def k0_dev25 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_308 : BitVec 32 := 10#32
  let v489 : BitVec 32 := Scalar.addi v2 c10_i32_308
  let c16_i32_309 : BitVec 32 := 16#32
  let c0_i32_310 : BitVec 32 := 0#32
  let v490 : BitVec 1 := Scalar.cmpi .eq c16_i32_309 c0_i32_310
  let c1_i32_311 : BitVec 32 := 1#32
  let v491 : BitVec 32 := Scalar.select v490 c1_i32_311 c16_i32_309
  let v492 : BitVec 32 := Scalar.remsi v489 v491
  let c0_i32_313 : BitVec 32 := 0#32
  let v494 : BitVec 1 := Scalar.cmpi .slt v492 c0_i32_313
  let c0_i32_314 : BitVec 32 := 0#32
  let v495 : BitVec 1 := Scalar.cmpi .slt v491 c0_i32_314
  let v496 : BitVec 1 := Scalar.xori v494 v495
  let c0_i32_312 : BitVec 32 := 0#32
  let v493 : BitVec 1 := Scalar.cmpi .ne v492 c0_i32_312
  let v497 : BitVec 1 := Scalar.andi v496 v493
  let v498 : BitVec 32 := Scalar.addi v492 v491
  let v499 : BitVec 32 := Scalar.select v497 v498 v492
  let c1_i32_315 : BitVec 32 := 1#32
  let v500 : BitVec 32 := Scalar.muli v499 c1_i32_315
  let v501 : BitVec 32 := Scalar.addi c0_i32_316 v500
  v501.toNat
def k0_dev26 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_326 : BitVec 32 := 11#32
  let v519 : BitVec 32 := Scalar.addi v2 c11_i32_326
  let c16_i32_327 : BitVec 32 := 16#32
  let c0_i32_328 : BitVec 32 := 0#32
  let v520 : BitVec 1 := Scalar.cmpi .eq c16_i32_327 c0_i32_328
  let c1_i32_329 : BitVec 32 := 1#32
  let v521 : BitVec 32 := Scalar.select v520 c1_i32_329 c16_i32_327
  let v522 : BitVec 32 := Scalar.remsi v519 v521
  let c0_i32_331 : BitVec 32 := 0#32
  let v524 : BitVec 1 := Scalar.cmpi .slt v522 c0_i32_331
  let c0_i32_332 : BitVec 32 := 0#32
  let v525 : BitVec 1 := Scalar.cmpi .slt v521 c0_i32_332
  let v526 : BitVec 1 := Scalar.xori v524 v525
  let c0_i32_330 : BitVec 32 := 0#32
  let v523 : BitVec 1 := Scalar.cmpi .ne v522 c0_i32_330
  let v527 : BitVec 1 := Scalar.andi v526 v523
  let v528 : BitVec 32 := Scalar.addi v522 v521
  let v529 : BitVec 32 := Scalar.select v527 v528 v522
  let c1_i32_333 : BitVec 32 := 1#32
  let v530 : BitVec 32 := Scalar.muli v529 c1_i32_333
  let v531 : BitVec 32 := Scalar.addi c0_i32_334 v530
  v531.toNat
def k0_dev27 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_344 : BitVec 32 := 12#32
  let v549 : BitVec 32 := Scalar.addi v2 c12_i32_344
  let c16_i32_345 : BitVec 32 := 16#32
  let c0_i32_346 : BitVec 32 := 0#32
  let v550 : BitVec 1 := Scalar.cmpi .eq c16_i32_345 c0_i32_346
  let c1_i32_347 : BitVec 32 := 1#32
  let v551 : BitVec 32 := Scalar.select v550 c1_i32_347 c16_i32_345
  let v552 : BitVec 32 := Scalar.remsi v549 v551
  let c0_i32_349 : BitVec 32 := 0#32
  let v554 : BitVec 1 := Scalar.cmpi .slt v552 c0_i32_349
  let c0_i32_350 : BitVec 32 := 0#32
  let v555 : BitVec 1 := Scalar.cmpi .slt v551 c0_i32_350
  let v556 : BitVec 1 := Scalar.xori v554 v555
  let c0_i32_348 : BitVec 32 := 0#32
  let v553 : BitVec 1 := Scalar.cmpi .ne v552 c0_i32_348
  let v557 : BitVec 1 := Scalar.andi v556 v553
  let v558 : BitVec 32 := Scalar.addi v552 v551
  let v559 : BitVec 32 := Scalar.select v557 v558 v552
  let c1_i32_351 : BitVec 32 := 1#32
  let v560 : BitVec 32 := Scalar.muli v559 c1_i32_351
  let v561 : BitVec 32 := Scalar.addi c0_i32_352 v560
  v561.toNat
def k0_dev28 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_362 : BitVec 32 := 13#32
  let v579 : BitVec 32 := Scalar.addi v2 c13_i32_362
  let c16_i32_363 : BitVec 32 := 16#32
  let c0_i32_364 : BitVec 32 := 0#32
  let v580 : BitVec 1 := Scalar.cmpi .eq c16_i32_363 c0_i32_364
  let c1_i32_365 : BitVec 32 := 1#32
  let v581 : BitVec 32 := Scalar.select v580 c1_i32_365 c16_i32_363
  let v582 : BitVec 32 := Scalar.remsi v579 v581
  let c0_i32_367 : BitVec 32 := 0#32
  let v584 : BitVec 1 := Scalar.cmpi .slt v582 c0_i32_367
  let c0_i32_368 : BitVec 32 := 0#32
  let v585 : BitVec 1 := Scalar.cmpi .slt v581 c0_i32_368
  let v586 : BitVec 1 := Scalar.xori v584 v585
  let c0_i32_366 : BitVec 32 := 0#32
  let v583 : BitVec 1 := Scalar.cmpi .ne v582 c0_i32_366
  let v587 : BitVec 1 := Scalar.andi v586 v583
  let v588 : BitVec 32 := Scalar.addi v582 v581
  let v589 : BitVec 32 := Scalar.select v587 v588 v582
  let c1_i32_369 : BitVec 32 := 1#32
  let v590 : BitVec 32 := Scalar.muli v589 c1_i32_369
  let v591 : BitVec 32 := Scalar.addi c0_i32_370 v590
  v591.toNat
def k0_dev29 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_380 : BitVec 32 := 14#32
  let v609 : BitVec 32 := Scalar.addi v2 c14_i32_380
  let c16_i32_381 : BitVec 32 := 16#32
  let c0_i32_382 : BitVec 32 := 0#32
  let v610 : BitVec 1 := Scalar.cmpi .eq c16_i32_381 c0_i32_382
  let c1_i32_383 : BitVec 32 := 1#32
  let v611 : BitVec 32 := Scalar.select v610 c1_i32_383 c16_i32_381
  let v612 : BitVec 32 := Scalar.remsi v609 v611
  let c0_i32_385 : BitVec 32 := 0#32
  let v614 : BitVec 1 := Scalar.cmpi .slt v612 c0_i32_385
  let c0_i32_386 : BitVec 32 := 0#32
  let v615 : BitVec 1 := Scalar.cmpi .slt v611 c0_i32_386
  let v616 : BitVec 1 := Scalar.xori v614 v615
  let c0_i32_384 : BitVec 32 := 0#32
  let v613 : BitVec 1 := Scalar.cmpi .ne v612 c0_i32_384
  let v617 : BitVec 1 := Scalar.andi v616 v613
  let v618 : BitVec 32 := Scalar.addi v612 v611
  let v619 : BitVec 32 := Scalar.select v617 v618 v612
  let c1_i32_387 : BitVec 32 := 1#32
  let v620 : BitVec 32 := Scalar.muli v619 c1_i32_387
  let v621 : BitVec 32 := Scalar.addi c0_i32_388 v620
  v621.toNat
def k0_dev30 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_398 : BitVec 32 := 15#32
  let v639 : BitVec 32 := Scalar.addi v2 c15_i32_398
  let c16_i32_399 : BitVec 32 := 16#32
  let c0_i32_400 : BitVec 32 := 0#32
  let v640 : BitVec 1 := Scalar.cmpi .eq c16_i32_399 c0_i32_400
  let c1_i32_401 : BitVec 32 := 1#32
  let v641 : BitVec 32 := Scalar.select v640 c1_i32_401 c16_i32_399
  let v642 : BitVec 32 := Scalar.remsi v639 v641
  let c0_i32_403 : BitVec 32 := 0#32
  let v644 : BitVec 1 := Scalar.cmpi .slt v642 c0_i32_403
  let c0_i32_404 : BitVec 32 := 0#32
  let v645 : BitVec 1 := Scalar.cmpi .slt v641 c0_i32_404
  let v646 : BitVec 1 := Scalar.xori v644 v645
  let c0_i32_402 : BitVec 32 := 0#32
  let v643 : BitVec 1 := Scalar.cmpi .ne v642 c0_i32_402
  let v647 : BitVec 1 := Scalar.andi v646 v643
  let v648 : BitVec 32 := Scalar.addi v642 v641
  let v649 : BitVec 32 := Scalar.select v647 v648 v642
  let c1_i32_405 : BitVec 32 := 1#32
  let v650 : BitVec 32 := Scalar.muli v649 c1_i32_405
  let v651 : BitVec 32 := Scalar.addi c0_i32_406 v650
  v651.toNat
def k0_off5 (d0 : Dev nD) (c1_i32_409 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v658 : BitVec 32 := Scalar.addi v2 c1_i32_409
  let c16_i32_410 : BitVec 32 := 16#32
  let c0_i32_411 : BitVec 32 := 0#32
  let v659 : BitVec 1 := Scalar.cmpi .eq c16_i32_410 c0_i32_411
  let c1_i32_412 : BitVec 32 := 1#32
  let v660 : BitVec 32 := Scalar.select v659 c1_i32_412 c16_i32_410
  let v661 : BitVec 32 := Scalar.remsi v658 v660
  let c0_i32_414 : BitVec 32 := 0#32
  let v663 : BitVec 1 := Scalar.cmpi .slt v661 c0_i32_414
  let c0_i32_415 : BitVec 32 := 0#32
  let v664 : BitVec 1 := Scalar.cmpi .slt v660 c0_i32_415
  let v665 : BitVec 1 := Scalar.xori v663 v664
  let c0_i32_413 : BitVec 32 := 0#32
  let v662 : BitVec 1 := Scalar.cmpi .ne v661 c0_i32_413
  let v666 : BitVec 1 := Scalar.andi v665 v662
  let v667 : BitVec 32 := Scalar.addi v661 v660
  let v668 : BitVec 32 := Scalar.select v666 v667 v661
  let c0_i32_419 : BitVec 32 := 0#32
  ![v668.toNat, 0]
abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  reduces_S512x256_S256 : S512x256.Reduces [0] S256
  shapeCasts_S256_S1x256 : S256.ShapeCasts S1x256
  h_S1x256 : 0 < S1x256.numel
  shapeCasts_S1x256_S1x256 : S1x256.ShapeCasts S1x256
  hamt_15 : (15#32 : BitVec 32).msb = false
  squeezes_S1_S_ : S1.Squeezes S_
  inb_S16x256_S16x256_0_0 : ∀ a, (![0, 0] : Fin 2 → Nat) a + S16x256.size a ≤ S16x256.size a
  h_S16x256 : 0 < S16x256.numel
  reduces_S16x256_S256 : S16x256.Reduces [0] S256
  inb_S1x256_S1x256_0_0 : ∀ a, (![0, 0] : Fin 2 → Nat) a + S1x256.size a ≤ S1x256.size a
  hcc0_scratch2 : 1 + S_.numel ≤ 34
  hcc0_scratch3 : 2 + S16.numel ≤ 34
  hcc0_scratch4 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1x256.size a ≤ S16x256.size a
  k0_off2_inb : ∀ d0 : Dev nD, ∀ (r : Fin 15), ∀ a, (k0_off2 d0 (BitVec.ofNat 32 (1 + r.val))) a + S1.size a ≤ S16.size a
  k0_off3_inb : ∀ d0 : Dev nD, ∀ a, (k0_off3 d0) a + S1.size a ≤ S16.size a
  k0_off4_inb : ∀ d0 : Dev nD, ∀ a, (k0_off4 d0) a + S1x256.size a ≤ S16x256.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off5_inb : ∀ d0 : Dev nD, ∀ (r : Fin 15), ∀ a, (k0_off5 d0 (BitVec.ofNat 32 (1 + r.val))) a + S1x256.size a ≤ S16x256.size a
  hstage0_0 : ∀ j, (stage0_0 j).IsWhole

variable [Facts₀]

abbrev cc0_scratch2 : DmaSems sig S_ := SemArray.consecutive 1 S_ hcc0_scratch2
abbrev cc0_scratch3 : DmaSems sig S16 := SemArray.consecutive 2 S16 hcc0_scratch3
abbrev cc0_scratch4 : DmaSems sig S16 := SemArray.consecutive 18 S16 hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S256 : Shape := ⟨1, ![256]⟩
abbrev S1x256 : Shape := ⟨2, ![1, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S_, .f32⟩
  | .hbm, ⟨2, _⟩ => ⟨S256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x256_S256_d0 : S8192x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)

variable [Facts₀]

class Facts : Prop extends Facts₀ where

variable [Facts]
-- ==== Proof.Closed.lean ====
/-
  Closed forms of the kernel's device and offset chains. Every chain the body spells is `(me + d) mod 16`
  for a literal `d` in 1 … 15: the fifteen barrier signals, the fifteen remote copies, the send and receive
  semaphore slots and the gather rows they name.
-/
import proofs.«900953_g7700000000000954_dist_mean_ax0_shard0_i_m512_n256_v7x_i16_f32_1_alg».proof.Proof.Gen.KernelIdeal

noncomputable section

namespace Cert.KernelIdeal.Mean

open Cert.KernelIdeal Cert.KernelIdeal.Gen
open Idealize.ShloMosaic Idealize.ShloMosaic.TcCoe Idealize.SL.Sem

/-- The device `d` places after `c` on the ring of sixteen. -/
def peer (c : Dev nD) (d : Fin 16) : Dev nD := ⟨(c.val + d.val) % 16, Nat.mod_lt _ (by decide)⟩

/-- The device `d` places before `c`. -/
def back (c : Dev nD) (d : Fin 16) : Dev nD := ⟨(c.val + 16 - d.val) % 16, Nat.mod_lt _ (by decide)⟩

theorem back_peer (c : Dev nD) (d : Fin 16) : back (peer c d) d = c := by revert c d; decide
theorem peer_back (c : Dev nD) (d : Fin 16) : peer (back c d) d = c := by revert c d; decide
theorem peer_ne (c : Dev nD) (d : Fin 16) (hd : d ≠ 0) : peer c d ≠ c := by revert c d; decide
theorem peer_zero (c : Dev nD) : peer c 0 = c := by revert c; decide
/-- The offset from `c` back to itself by way of `peer c d`. -/
def neg (d : Fin 16) : Fin 16 := ⟨(16 - d.val) % 16, Nat.mod_lt _ (by decide)⟩
theorem peer_peer_neg (c : Dev nD) (d : Fin 16) : peer (peer c d) (neg d) = c := by revert c d; decide
theorem back_eq_peer_neg (c : Dev nD) (d : Fin 16) : back c d = peer c (neg d) := by revert c d; decide
theorem neg_neg (d : Fin 16) : neg (neg d) = d := by revert d; decide
theorem neg_ne_zero (d : Fin 16) (hd : d ≠ 0) : neg d ≠ 0 := by revert d; decide
theorem peer_inj (c : Dev nD) : Function.Injective (peer c) := by revert c; decide
theorem peer_surj_of_ne (c p : Dev nD) (h : p ≠ c) : ∃ d : Fin 16, d ≠ 0 ∧ peer c d = p := by revert c p; decide

/-! ## The barrier signals' targets -/
theorem devS1 (c : Dev nD) : (⟨k0_dev1 c, k0_dev1_lt c⟩ : Dev nD) = peer c 1 := by revert c; decide +kernel
theorem devS2 (c : Dev nD) : (⟨k0_dev2 c, k0_dev2_lt c⟩ : Dev nD) = peer c 2 := by revert c; decide +kernel
theorem devS3 (c : Dev nD) : (⟨k0_dev3 c, k0_dev3_lt c⟩ : Dev nD) = peer c 3 := by revert c; decide +kernel
theorem devS4 (c : Dev nD) : (⟨k0_dev4 c, k0_dev4_lt c⟩ : Dev nD) = peer c 4 := by revert c; decide +kernel
theorem devS5 (c : Dev nD) : (⟨k0_dev5 c, k0_dev5_lt c⟩ : Dev nD) = peer c 5 := by revert c; decide +kernel
theorem devS6 (c : Dev nD) : (⟨k0_dev6 c, k0_dev6_lt c⟩ : Dev nD) = peer c 6 := by revert c; decide +kernel
theorem devS7 (c : Dev nD) : (⟨k0_dev7 c, k0_dev7_lt c⟩ : Dev nD) = peer c 7 := by revert c; decide +kernel
theorem devS8 (c : Dev nD) : (⟨k0_dev8 c, k0_dev8_lt c⟩ : Dev nD) = peer c 8 := by revert c; decide +kernel
theorem devS9 (c : Dev nD) : (⟨k0_dev9 c, k0_dev9_lt c⟩ : Dev nD) = peer c 9 := by revert c; decide +kernel
theorem devS10 (c : Dev nD) : (⟨k0_dev10 c, k0_dev10_lt c⟩ : Dev nD) = peer c 10 := by revert c; decide +kernel
theorem devS11 (c : Dev nD) : (⟨k0_dev11 c, k0_dev11_lt c⟩ : Dev nD) = peer c 11 := by revert c; decide +kernel
theorem devS12 (c : Dev nD) : (⟨k0_dev12 c, k0_dev12_lt c⟩ : Dev nD) = peer c 12 := by revert c; decide +kernel
theorem devS13 (c : Dev nD) : (⟨k0_dev13 c, k0_dev13_lt c⟩ : Dev nD) = peer c 13 := by revert c; decide +kernel
theorem devS14 (c : Dev nD) : (⟨k0_dev14 c, k0_dev14_lt c⟩ : Dev nD) = peer c 14 := by revert c; decide +kernel
theorem devS15 (c : Dev nD) : (⟨k0_dev15 c, k0_dev15_lt c⟩ : Dev nD) = peer c 15 := by revert c; decide +kernel

/-! ## The remote copies' targets -/
theorem devC1 (c : Dev nD) : (⟨k0_dev16 c, k0_dev16_lt c⟩ : Dev nD) = peer c 1 := by revert c; decide +kernel
theorem devC2 (c : Dev nD) : (⟨k0_dev17 c, k0_dev17_lt c⟩ : Dev nD) = peer c 2 := by revert c; decide +kernel
theorem devC3 (c : Dev nD) : (⟨k0_dev18 c, k0_dev18_lt c⟩ : Dev nD) = peer c 3 := by revert c; decide +kernel
theorem devC4 (c : Dev nD) : (⟨k0_dev19 c, k0_dev19_lt c⟩ : Dev nD) = peer c 4 := by revert c; decide +kernel
theorem devC5 (c : Dev nD) : (⟨k0_dev20 c, k0_dev20_lt c⟩ : Dev nD) = peer c 5 := by revert c; decide +kernel
theorem devC6 (c : Dev nD) : (⟨k0_dev21 c, k0_dev21_lt c⟩ : Dev nD) = peer c 6 := by revert c; decide +kernel
theorem devC7 (c : Dev nD) : (⟨k0_dev22 c, k0_dev22_lt c⟩ : Dev nD) = peer c 7 := by revert c; decide +kernel
theorem devC8 (c : Dev nD) : (⟨k0_dev23 c, k0_dev23_lt c⟩ : Dev nD) = peer c 8 := by revert c; decide +kernel
theorem devC9 (c : Dev nD) : (⟨k0_dev24 c, k0_dev24_lt c⟩ : Dev nD) = peer c 9 := by revert c; decide +kernel
theorem devC10 (c : Dev nD) : (⟨k0_dev25 c, k0_dev25_lt c⟩ : Dev nD) = peer c 10 := by revert c; decide +kernel
theorem devC11 (c : Dev nD) : (⟨k0_dev26 c, k0_dev26_lt c⟩ : Dev nD) = peer c 11 := by revert c; decide +kernel
theorem devC12 (c : Dev nD) : (⟨k0_dev27 c, k0_dev27_lt c⟩ : Dev nD) = peer c 12 := by revert c; decide +kernel
theorem devC13 (c : Dev nD) : (⟨k0_dev28 c, k0_dev28_lt c⟩ : Dev nD) = peer c 13 := by revert c; decide +kernel
theorem devC14 (c : Dev nD) : (⟨k0_dev29 c, k0_dev29_lt c⟩ : Dev nD) = peer c 14 := by revert c; decide +kernel
theorem devC15 (c : Dev nD) : (⟨k0_dev30 c, k0_dev30_lt c⟩ : Dev nD) = peer c 15 := by revert c; decide +kernel

/-! ## The offsets -/

/-- Offset `1 + r` as an offset on the ring. -/
def offOf (r : Fin 15) : Fin 16 := ⟨1 + r.val, by omega⟩
theorem offOf_ne_zero (r : Fin 15) : offOf r ≠ 0 := by revert r; decide

theorem off2_eq : ∀ (c : Dev nD) (r : Fin 15), k0_off2 c (BitVec.ofNat 32 (1 + r.val)) = ![(peer c (offOf r)).val] := by decide +kernel
theorem off5_eq : ∀ (c : Dev nD) (r : Fin 15), k0_off5 c (BitVec.ofNat 32 (1 + r.val)) = ![(peer c (offOf r)).val, 0] := by decide +kernel

/-! ## The semaphores -/

/-- The local copy's, the sixteen send and the sixteen receive DMA semaphores, by slot. -/
abbrev copySem : DmaSem sig := cc0_scratch2.sem
def sendSem (j : Dev nD) : DmaSem sig := ⟨2 + j.val, by have h : j.val < 16 := j.isLt; show 2 + j.val < 34; omega⟩
def recvSem (j : Dev nD) : DmaSem sig := ⟨18 + j.val, by have h : j.val < 16 := j.isLt; show 18 + j.val < 34; omega⟩

theorem send_slot : ∀ (c : Dev nD) (r : Fin 15),
    ((cc0_scratch3.slice (Rect.unit (s := S16) (k0_off2 c (BitVec.ofNat 32 (1 + r.val))) S1.size (k0_off2_inb c r))).squeeze S_ squeezes_S1_S_).sem
      = sendSem (peer c (offOf r)) := by decide +kernel
theorem recv_slot_wait : ∀ (c : Dev nD) (r : Fin 15),
    ((cc0_scratch4.slice (Rect.unit (s := S16) (k0_off2 c (BitVec.ofNat 32 (1 + r.val))) S1.size (k0_off2_inb c r))).squeeze S_ squeezes_S1_S_).sem
      = recvSem (peer c (offOf r)) := by decide +kernel
theorem recv_slot_own : ∀ (c : Dev nD),
    ((cc0_scratch4.slice (Rect.unit (s := S16) (k0_off3 c) S1.size (k0_off3_inb c))).squeeze S_ squeezes_S1_S_).sem = recvSem c := by decide +kernel

theorem sendSem_inj : Function.Injective sendSem := by decide
theorem recvSem_inj : Function.Injective recvSem := by decide
theorem sendSem_ne_recvSem (i j : Dev nD) : sendSem i ≠ recvSem j := by revert i j; decide
theorem copySem_ne_sendSem (j : Dev nD) : copySem ≠ sendSem j := by revert j; decide
theorem copySem_ne_recvSem (j : Dev nD) : copySem ≠ recvSem j := by revert j; decide

end Cert.KernelIdeal.Mean

end
-- ==== Proof.Spec.lean ====
/-
  What the kernel computes, as pure functions of the devices' argument blocks (any float instance).
  Device `s` first reduces its own block of `x` over the rows and scales by the constant the kernel spells
  (the body's first payload); every device then holds, in row `s` of its gather buffer, device `s`'s scaled
  column sums; the result is the column sums of that 16 × 256 buffer (the body's second payload).
-/
import proofs.«900953_g7700000000000954_dist_mean_ax0_shard0_i_m512_n256_v7x_i16_f32_1_alg».proof.Proof.Gen.KernelIdeal.Skeleton
import Idealize.ShloMosaic.Lib.ValueIdx

noncomputable section

namespace Cert.KernelIdeal.Mean

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Device `s`'s block of the argument, as launched. -/
def xin (s : Dev nD) : Vec F S512x256 .f32 := m ((s : Thread nD τ).loc main_arg0)

/-- The device a row of the gather buffer belongs to. -/
def rowDev (i : S16x256.Idx) : Dev nD := ⟨(i 0).val, (i 0).isLt⟩

/-- The gather buffer once every row has landed: row `s` is device `s`'s scaled column sums. The same
    function on every device. -/
def gath : Vec F S16x256 .f32 := fun i => k0_pay1 (xin m (rowDev i)) (ValueIdx.ix2 (0 : Fin 1) (i 1))

/-- The result every device ends with: the column sums of the gathered rows. -/
def outv : Vec F S1x256 .f32 := k0_pay2 (gath m)

end Cert.KernelIdeal.Mean

end
-- ==== Proof.Proto.lean ====
/-
  The all-gather's protocol, as a schedule of rounds.

  Sixteen devices. Device `c` owns one regular cell, the barrier semaphore, and thirty-three DMA cells: the local
  copy's, one send cell per peer slot and one receive cell per peer slot. Everything happens in round 0.
  * Barrier cell of `c`: fifteen duties of one unit, duty `e ≠ 0` paid by the device `e` places after `c`; with
    its signal that device hands `c` row `c` of its own gather buffer (so that `c` may write it) and the fact
    that its receive cell for `c` has reached round 0.
  * Receive cell `(c, j)`, `j ≠ c`: one duty, paid by device `j`'s copy landing; it hands `c` row `j` of its gather
    buffer holding device `j`'s scaled column sums.
  * Send cell `(c, j)`, `j ≠ c`: one duty, paid when the copy to device `j` has read its source; it hands back
    the share of row `c` that copy was reading.
  * Copy cell of `c`: one duty, the local copy of the argument block into VMEM.
-/
import proofs.«900953_g7700000000000954_dist_mean_ax0_shard0_i_m512_n256_v7x_i16_f32_1_alg».proof.Proof.Closed
import proofs.«900953_g7700000000000954_dist_mean_ax0_shard0_i_m512_n256_v7x_i16_f32_1_alg».proof.Proof.Spec
import proofs.«900953_g7700000000000954_dist_mean_ax0_shard0_i_m512_n256_v7x_i16_f32_1_alg».proof.Proof.Gen.KernelIdeal.Skeleton
import proofs.«900953_g7700000000000954_dist_mean_ax0_shard0_i_m512_n256_v7x_i16_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Memrefs -/

abbrev xH : Memref sig .tc .hbm S512x256 .f32 := Memref.whole main_arg0
abbrev oM : Memref sig .tc .vmem S1x256 .f32 := Memref.whole cc0_stg0_0
abbrev xV : Memref sig .tc .vmem S512x256 .f32 := Memref.whole cc0_scratch0
abbrev gM : Memref sig .tc .vmem S16x256 .f32 := Memref.whole cc0_scratch1

theorem rowInb (j : Dev nD) : ∀ a, (![j.val, 0] : Fin 2 → Nat) a + S1x256.size a ≤ S16x256.size a := by revert j; decide

/-- Row `j` of the gather buffer, as a memref. -/
abbrev rowM (j : Dev nD) : Memref sig .tc .vmem S1x256 .f32 :=
  gM.slice (Rect.unit (s := S16x256) ![j.val, 0] S1x256.size (rowInb j)) (fun _ => rfl)

/-- The kernel's own spelling of a row is `rowM` of the closed form of its offset. -/
theorem row_eq (off : Fin 2 → Nat) (h : ∀ a, off a + S1x256.size a ≤ S16x256.size a) (j : Dev nD) (hoff : off = ![j.val, 0]) :
    gM.slice (Rect.unit (s := S16x256) off S1x256.size h) (fun _ => rfl) = rowM j :=
  Memref.slice_unit_congr gM hoff h (rowInb j) _ _

theorem row_own (c : Dev nD) : gM.slice (Rect.unit (s := S16x256) (k0_off4 c) S1x256.size (k0_off4_inb c)) (fun _ => rfl) = rowM c :=
  row_eq _ _ c (k0_off4_eq c)
theorem row_peer (c : Dev nD) (r : Fin 15) :
    gM.slice (Rect.unit (s := S16x256) (k0_off5 c (BitVec.ofNat 32 (1 + r.val))) S1x256.size (k0_off5_inb c r)) (fun _ => rfl) = rowM (peer c (offOf r)) :=
  row_eq _ _ _ (off5_eq c r)

/-! ## Cells -/

abbrev barS : Sem sig := (SemArray.scalar (sig.barrier 0 rfl) : Sems sig S_).sem

abbrev barCell (c : Dev nD) : GSem nD τ sig := ((c : Thread nD τ), .reg barS)
abbrev copyCell (c : Dev nD) : GSem nD τ sig := ((c : Thread nD τ), .dma copySem)
abbrev sendCell (c j : Dev nD) : GSem nD τ sig := ((c : Thread nD τ), .dma (sendSem j))
abbrev recvCell (c j : Dev nD) : GSem nD τ sig := ((c : Thread nD τ), .dma (recvSem j))

/-- What a DMA semaphore of the kernel is for. -/
inductive SemKind where
  | copy | send (j : Dev nD) | recv (j : Dev nD) | other
  deriving DecidableEq

def classify (q : DmaSem sig) : SemKind :=
  if q.val = 1 then .copy
  else if h : 2 ≤ q.val ∧ q.val < 18 then .send ⟨q.val - 2, by show q.val - 2 < 16; omega⟩
  else if h : 18 ≤ q.val ∧ q.val < 34 then .recv ⟨q.val - 18, by show q.val - 18 < 16; omega⟩
  else .other

theorem classify_copy : classify copySem = .copy := by decide
theorem classify_send : ∀ j : Dev nD, classify (sendSem j) = .send j := by decide
theorem classify_recv : ∀ j : Dev nD, classify (recvSem j) = .recv j := by decide

/-- The credit one row's transfer pays, and the local copy's. -/
abbrev N : ℕ := (rowM 0).view.dmaCredit
abbrev N1 : ℕ := (xV : Memref sig .tc .vmem S512x256 .f32).view.dmaCredit
theorem N_pos : 0 < N := View.dmaCredit_pos _ (by decide)
theorem N1_pos : 0 < N1 := View.dmaCredit_pos _ (by decide)
theorem row_credit (j : Dev nD) : (rowM j).view.dmaCredit = N := rfl

/-! ## Shares of the source row

The left half of row `c` is dealt to the fifteen copies reading it, piece by piece; the right half of every row stays
with the owner for the final load of the whole buffer. -/

def restS : ℕ → PosShare TreeShare
  | 0 => fullShare.left
  | n + 1 => (restS n).right
/-- The share the `e`-th copy reads through, `e ≥ 1`. -/
def pieceS (e : ℕ) : PosShare TreeShare := (restS (e - 1)).left
abbrev keepS : PosShare TreeShare := fullShare.right

/-! ## Contents -/

/-- The gathered buffer as device `c`'s buffer contents. -/
def gathB (c : Dev nD) : Buf (Elt F) ((gM : Memref sig .tc .vmem S16x256 .f32).view.loc (c : Thread nD τ)) := gath m
/-- The argument block as the VMEM copy's contents. -/
def xinV (c : Dev nD) : Buf (Elt F) ((xV : Memref sig .tc .vmem S512x256 .f32).view.loc (c : Thread nD τ)) := xin m c
def xinH (c : Dev nD) : Buf (Elt F) ((xH : Memref sig .tc .hbm S512x256 .f32).view.loc (c : Thread nD τ)) := xin m c

/-- Row `j` of device `s`'s gather buffer at share `q` and contents `f`. -/
def rowAt (s j : Dev nD) (q : PosShare TreeShare) (f : Buf (Elt F) ((rowM j).view.loc (s : Thread nD τ))) : sProp 𝕄 :=
  (rowM j).view.loc (s : Thread nD τ) ↦[(rowM j).view.set]{q} f

omit [FloatOps F] in
instance rowAt_storable (s j : Dev nD) (q) (f) : BI.Storable (upEmb : UEmb _ 𝕄) (rowAt (F := F) s j q f) := by unfold rowAt; infer_instance

/-- The offset from `c` to `j` on the ring. -/
def dist (c j : Dev nD) : Fin 16 := ⟨(j.val + 16 - c.val) % 16, Nat.mod_lt _ (by decide)⟩
theorem dist_peer (c : Dev nD) (e : Fin 16) : dist c (peer c e) = e := by revert c e; decide
theorem peer_dist (c j : Dev nD) : peer c (dist c j) = j := by revert c j; decide

/-! ## The schedule -/

/-- Duty `e` of `c`'s barrier cell, paid by `peer c e`: that device's row `c`, and that its receive cell for `c` is open. -/
def barPay (c : Dev nD) (e : Fin 16) : sProp 𝕄 :=
  iprop((∃ f, rowAt (peer c e) c fullShare f) ∗ reached ER (recvCell (peer c e) c) 0)
/-- Row `j` landed on `c`. -/
def recvPay (c j : Dev nD) : sProp 𝕄 := rowAt c j fullShare (gathB m c)
/-- The share of its own row the copy from `c` to `j` read through. -/
def sendPay (c j : Dev nD) : sProp 𝕄 := rowAt c c (pieceS (dist c j).val) (gathB m c)
/-- The argument block in VMEM, and the HBM block back. -/
def copyPay (c : Dev nD) : sProp 𝕄 :=
  iprop(((xV : Memref sig .tc .vmem S512x256 .f32).view.loc (c : Thread nD τ) ↦[(xV : Memref sig .tc .vmem S512x256 .f32).view.set]{fullShare} xinV m c)
    ∗ ((xH : Memref sig .tc .hbm S512x256 .f32).view.loc (c : Thread nD τ) ↦[(xH : Memref sig .tc .hbm S512x256 .f32).view.set]{fullShare} xinH m c))

def meanRd : Rounds.Schedule (GSem nD τ sig) (Fin 16) 𝕄 where
  duties g r :=
    if r ≠ 0 ∨ g.1.2 ≠ .tc then ∅ else
      match g.2 with
      | .reg s => if s = barS then Finset.univ.erase 0 else ∅
      | .dma q => match classify q with
        | .copy => {0}
        | .send j => if j = g.1.1 then ∅ else {0}
        | .recv j => if j = g.1.1 then ∅ else {0}
        | .other => ∅
  unitless _ := False
  amount g _ _ := match g.2 with
    | .reg _ => 1
    | .dma q => if q.val = 1 then N1 else N
  payload g _ d := match g.2 with
    | .reg _ => barPay g.1.1 d
    | .dma q => match classify q with
      | .copy => copyPay m g.1.1
      | .send j => sendPay m g.1.1 j
      | .recv j => recvPay m g.1.1 j
      | .other => iprop(emp)
  amount_pos g _ _ _ := by
    rcases g with ⟨t, (s | q)⟩
    · exact Nat.one_pos
    · show 0 < (if q.val = 1 then N1 else N)
      split
      · exact N1_pos
      · exact N_pos

instance meanRd_payload_storable (g : GSem nD τ sig) (r : ℕ) (d : Fin 16) :
    BI.Storable (upEmb : UEmb _ 𝕄) ((meanRd (F := F) m).payload g r d) := by
  rcases g with ⟨t, (s | q)⟩
  · show BI.Storable upEmb (barPay t.1 d)
    unfold barPay; infer_instance
  · show BI.Storable upEmb (match classify q with
        | .copy => copyPay m t.1 | .send j => sendPay m t.1 j | .recv j => recvPay m t.1 j | .other => iprop(emp))
    unfold copyPay sendPay recvPay
    split <;> infer_instance

/-! ## The schedule's tables -/

section Sched
variable (c : Dev nD)

theorem duties_bar : (meanRd (F := F) m).duties (barCell c) 0 = Finset.univ.erase 0 := by
  dsimp only [meanRd]; rw [if_neg (by simp)]; exact if_pos rfl
theorem duties_copy : (meanRd (F := F) m).duties (copyCell c) 0 = {0} := by
  dsimp only [meanRd]; rw [if_neg (by simp)]; simp only [classify_copy]
theorem duties_send (j : Dev nD) (h : j ≠ c) : (meanRd (F := F) m).duties (sendCell c j) 0 = {0} := by
  dsimp only [meanRd]; rw [if_neg (by simp)]; simp only [classify_send]; exact if_neg h
theorem duties_recv (j : Dev nD) (h : j ≠ c) : (meanRd (F := F) m).duties (recvCell c j) 0 = {0} := by
  dsimp only [meanRd]; rw [if_neg (by simp)]; simp only [classify_recv]; exact if_neg h
theorem duties_later (g : GSem nD τ sig) : ∀ r, 1 ≤ r → (meanRd (F := F) m).duties g r = ∅ :=
  fun r hr => by dsimp only [meanRd]; rw [if_pos (Or.inl (by omega))]

theorem amount_bar (d : Fin 16) : (meanRd (F := F) m).amount (barCell c) 0 d = 1 := rfl
theorem amount_copy (d : Fin 16) : (meanRd (F := F) m).amount (copyCell c) 0 d = N1 := by dsimp only [meanRd]; exact if_pos (by decide)
theorem amount_send (j : Dev nD) (d : Fin 16) : (meanRd (F := F) m).amount (sendCell c j) 0 d = N := by
  dsimp only [meanRd]; exact if_neg (by revert j; decide)
theorem amount_recv (j : Dev nD) (d : Fin 16) : (meanRd (F := F) m).amount (recvCell c j) 0 d = N := by
  dsimp only [meanRd]; exact if_neg (by revert j; decide)

theorem expect_bar : (meanRd (F := F) m).expect (barCell c) 0 = 15 := by
  unfold Schedule.expect Schedule.amountOf
  rw [duties_bar, Finset.sum_congr rfl fun d _ => amount_bar m c d, Finset.sum_const, smul_eq_mul, Nat.mul_one]; decide
theorem expect_copy : (meanRd (F := F) m).expect (copyCell c) 0 = N1 := by
  unfold Schedule.expect Schedule.amountOf; rw [duties_copy, Finset.sum_singleton, amount_copy]
theorem expect_send (j : Dev nD) (h : j ≠ c) : (meanRd (F := F) m).expect (sendCell c j) 0 = N := by
  unfold Schedule.expect Schedule.amountOf; rw [duties_send m c j h, Finset.sum_singleton, amount_send]
theorem expect_recv (j : Dev nD) (h : j ≠ c) : (meanRd (F := F) m).expect (recvCell c j) 0 = N := by
  unfold Schedule.expect Schedule.amountOf; rw [duties_recv m c j h, Finset.sum_singleton, amount_recv]

theorem payload_bar (d : Fin 16) : (meanRd (F := F) m).payload (barCell c) 0 d = barPay c d := rfl
theorem payload_copy (d : Fin 16) : (meanRd (F := F) m).payload (copyCell c) 0 d = copyPay m c := by
  dsimp only [meanRd]; simp only [classify_copy]
theorem payload_send (j : Dev nD) (d : Fin 16) : (meanRd (F := F) m).payload (sendCell c j) 0 d = sendPay m c j := by
  dsimp only [meanRd]; simp only [classify_send]
theorem payload_recv (j : Dev nD) (d : Fin 16) : (meanRd (F := F) m).payload (recvCell c j) 0 d = recvPay m c j := by
  dsimp only [meanRd]; simp only [classify_recv]

/-- What a wait for the whole round of a cell returns. -/
theorem rest_bar : bigSep ((meanRd (F := F) m).duties (barCell c) 0 \ ∅) (fun d => (meanRd (F := F) m).payload (barCell c) 0 d)
    = bigSep (Finset.univ.erase (0 : Fin 16)) (fun e => barPay (F := F) c e) := by
  rw [Finset.sdiff_empty, duties_bar]; rfl
theorem rest_copy : bigSep ((meanRd (F := F) m).duties (copyCell c) 0 \ ∅) (fun d => (meanRd (F := F) m).payload (copyCell c) 0 d) = copyPay m c := by
  rw [Finset.sdiff_empty, duties_copy, bigSep_singleton, payload_copy]
theorem rest_send (j : Dev nD) (h : j ≠ c) :
    bigSep ((meanRd (F := F) m).duties (sendCell c j) 0 \ ∅) (fun d => (meanRd (F := F) m).payload (sendCell c j) 0 d) = sendPay m c j := by
  rw [Finset.sdiff_empty, duties_send m c j h, bigSep_singleton, payload_send]
theorem rest_recv (j : Dev nD) (h : j ≠ c) :
    bigSep ((meanRd (F := F) m).duties (recvCell c j) 0 \ ∅) (fun d => (meanRd (F := F) m).payload (recvCell c j) 0 d) = recvPay m c j := by
  rw [Finset.sdiff_empty, duties_recv m c j h, bigSep_singleton, payload_recv]

end Sched

/-! ## What each core owes at launch; the levels -/

/-- The offsets `1, …, 15`, in the order the kernel walks them. -/
abbrev offs : List (Fin 16) := [1, 2, 3, 4, 5, 6, 7, 8, 9, 10, 11, 12, 13, 14, 15]

/-- One unit to the barrier cell of each listed peer; -/
def owedSig (c : Dev nD) (l : List (Fin 16)) : CellTallies nD τ sig Unit := (l.map fun d => tallyAt (barCell (peer c d)) () 1).sum
/-- one row's credit to the receive cell for `c` of each listed peer. -/
def owedCp (c : Dev nD) (l : List (Fin 16)) : CellTallies nD τ sig Unit := (l.map fun d => tallyAt (recvCell (peer c d) c) () N).sum

def O₀ (c : Dev nD) : CellTallies nD τ sig Unit := owedCp c offs + owedSig c offs

theorem owedSig_cons (c : Dev nD) (d : Fin 16) (l : List (Fin 16)) (R : CellTallies nD τ sig Unit) :
    R + owedSig c (d :: l) = (R + owedSig c l) + tallyAt (barCell (peer c d)) () 1 := by
  unfold owedSig; rw [List.map_cons, List.sum_cons]; abel
theorem owedCp_cons (c : Dev nD) (d : Fin 16) (l : List (Fin 16)) :
    owedCp c (d :: l) = owedCp c l + tallyAt (recvCell (peer c d) c) () N := by
  unfold owedCp; rw [List.map_cons, List.sum_cons]; abel
theorem owedSig_nil (c : Dev nD) : owedSig c [] = 0 := rfl
theorem owedCp_nil (c : Dev nD) : owedCp c [] = 0 := rfl

def L (g : GSem nD τ sig) : Finset Unit := if g.1.2 = .tc then {()} else ∅
/-- Barrier cells at 1, receive cells at 2, everything else (staging, copy, send) at 0. -/
def lv (g : GSem nD τ sig) (_ : Unit) : ℕ :=
  match g.2 with
  | .reg s => if s = barS then 1 else 0
  | .dma q => match classify q with
    | .recv _ => 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by
  show (if barS = barS then 1 else 0) = 1
  exact if_pos rfl
theorem lv_recv (c j : Dev nD) (u : Unit) : lv (recvCell c j) u = 2 := by unfold lv; simp only [classify_recv]
theorem lv_copy (c : Dev nD) (u : Unit) : lv (copyCell c) u = 0 := by unfold lv; simp only [classify_copy]
theorem lv_send (c j : Dev nD) (u : Unit) : lv (sendCell c j) u = 0 := by unfold lv; simp only [classify_send]

/-- A positive entry of the listed dues is one of the listed cells. -/
theorem owedCp_pos {c : Dev nD} {l : List (Fin 16)} {g : GSem nD τ sig} {u : Unit} (h : 0 < owedCp c l g u) :
    ∃ d ∈ l, g = recvCell (peer c d) c := by
  induction l with
  | nil => exact absurd h (Nat.lt_irrefl 0)
  | cons d l ih =>
    rw [owedCp_cons, Pi.add_apply, Finsupp.add_apply, tallyAt_apply] at h
    by_cases hg : g = recvCell (peer c d) c ∧ u = ()
    · exact ⟨d, List.mem_cons_self, hg.1⟩
    · rw [if_neg hg, Nat.add_zero] at h
      obtain ⟨d', hd', e⟩ := ih h
      exact ⟨d', List.mem_cons_of_mem _ hd', e⟩
theorem owedSig_pos {c : Dev nD} {l : List (Fin 16)} {g : GSem nD τ sig} {u : Unit} (h : 0 < owedSig c l g u) :
    ∃ d ∈ l, g = barCell (peer c d) := by
  induction l with
  | nil => exact absurd h (Nat.lt_irrefl 0)
  | cons d l ih =>
    have e := owedSig_cons c d l 0
    rw [zero_add, zero_add] at e
    rw [e, Pi.add_apply, Finsupp.add_apply, tallyAt_apply] at h
    by_cases hg : g = barCell (peer c d) ∧ u = ()
    · exact ⟨d, List.mem_cons_self, hg.1⟩
    · rw [if_neg hg, Nat.add_zero] at h
      obtain ⟨d', hd', e⟩ := ih h
      exact ⟨d', List.mem_cons_of_mem _ hd', e⟩

omit [FloatOps F] in
/-- A cell at level 0 may be waited on whatever of the launch dues is still owed. -/
theorem mayWait_low (c : Dev nD) (sm : SemLoc sig) (hsm : lv ((c : Thread nD τ), sm) () = 0) (l₁ l₂ : List (Fin 16)) :
    (levAts L lv : sProp 𝕄) ⊢ MayWait (c : Thread nD τ) sm () (owedCp c l₁ + owedSig c l₂) :=
  MayOwe.of_cut (L := L) (lev := lv) 0 (fun p hp => by rw [Finset.mem_singleton.mp hp, L_tc]; exact Finset.mem_singleton_self _)
    (fun g u hg => by
      rw [Pi.add_apply, Finsupp.add_apply] at hg
      rcases Nat.add_pos_iff_pos_or_pos.mp hg with h | h
      · obtain ⟨d, -, rfl⟩ := owedCp_pos h; exact Finset.mem_singleton_self _
      · obtain ⟨d, -, rfl⟩ := owedSig_pos h; exact Finset.mem_singleton_self _)
    (fun p hp => by rw [Finset.mem_singleton.mp hp]; exact le_of_eq hsm)
    (fun g u hg => by
      rw [Pi.add_apply, Finsupp.add_apply] at hg
      rcases Nat.add_pos_iff_pos_or_pos.mp hg with h | h
      · obtain ⟨d, -, rfl⟩ := owedCp_pos h; rw [lv_recv]; decide
      · obtain ⟨d, -, rfl⟩ := owedSig_pos h; rw [lv_bar]; decide)

omit [FloatOps F] in
/-- At its barrier wait a device owes receive credits only: receive cells sit above barrier cells. -/
theorem mayWait_bar (c : Dev nD) (l : List (Fin 16)) :
    (levAts L lv : sProp 𝕄) ⊢ MayWait (c : Thread nD τ) (.reg barS) () (owedCp c l) :=
  MayOwe.of_cut (L := L) (lev := lv) 1 (fun p hp => by rw [Finset.mem_singleton.mp hp, L_tc]; exact Finset.mem_singleton_self _)
    (fun g u hg => by obtain ⟨d, -, rfl⟩ := owedCp_pos hg; exact Finset.mem_singleton_self _)
    (fun p hp => by rw [Finset.mem_singleton.mp hp]; exact le_of_eq (lv_bar c ()))
    (fun g u hg => by obtain ⟨d, -, rfl⟩ := owedCp_pos hg; rw [lv_recv]; decide)

/-! ## The cells as the launch indexes them

Cell 0 of a device is its barrier cell; cells 1 … 33 are its DMA cells by semaphore number: the local copy's, the
sixteen send slots, the sixteen receive slots. -/

def csem (k : Fin 34) : SemLoc sig := if k.val = 0 then .reg barS else .dma (k : DmaSem sig)
abbrev kcell (ck : Dev nD × Fin 34) : GSem nD τ sig := ((ck.1 : Thread nD τ), csem ck.2)
/-- The kernel's own (scoped) semaphores, as the launch theorem indexes them. -/
abbrev osem : Fin 33 → SemLoc sig := fun k => csem k.succ

def sendIx (j : Dev nD) : Fin 34 := ⟨2 + j.val, by have h : j.val < 16 := j.isLt; omega⟩
def recvIx (j : Dev nD) : Fin 34 := ⟨18 + j.val, by have h : j.val < 16 := j.isLt; omega⟩

theorem csem_bar : csem 0 = .reg barS := rfl
theorem csem_copy : csem 1 = .dma copySem := by decide
theorem csem_send : ∀ j : Dev nD, csem (sendIx j) = .dma (sendSem j) := by decide
theorem csem_recv : ∀ j : Dev nD, csem (recvIx j) = .dma (recvSem j) := by decide
theorem csem_injective : Function.Injective csem := by decide

theorem kcell_bar (c : Dev nD) : kcell (c, 0) = barCell c := rfl
theorem kcell_copy (c : Dev nD) : kcell (c, 1) = copyCell c := by show ((c : Thread nD τ), csem 1) = _; rw [csem_copy]
theorem kcell_send (c j : Dev nD) : kcell (c, sendIx j) = sendCell c j := by show ((c : Thread nD τ), csem (sendIx j)) = _; rw [csem_send]
theorem kcell_recv (c j : Dev nD) : kcell (c, recvIx j) = recvCell c j := by show ((c : Thread nD τ), csem (recvIx j)) = _; rw [csem_recv]

theorem kcell_injective : Function.Injective (kcell : Dev nD × Fin 34 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## What a body starts from -/

/-- Every cell's invariant under the name the launch allocated it at, and that every cell has reached round 0. -/
def records (K : Dev nD × Fin 34 → ℕ) : sProp 𝕄 :=
  iprop((bigSep Finset.univ fun ck : Dev nD × Fin 34 => cellInv ER (meanRd m) (K ck) (kcell ck))
    ∗ bigSep Finset.univ fun ck : Dev nD × Fin 34 => reached ER (kcell ck) 0)

instance records_persistent (K : Dev nD × Fin 34 → ℕ) : BI.Persistent (records m K) := by unfold records; infer_instance

theorem inv_at' (K : Dev nD × Fin 34 → ℕ) (ck : Dev nD × Fin 34) :
    (bigSep Finset.univ fun ck : Dev nD × Fin 34 => (cellInv ER (meanRd m) (K ck) (kcell ck) : sProp 𝕄)) ⊢ cellInv ER (meanRd m) (K ck) (kcell ck) :=
  bigSep_elim (Finset.mem_univ ck)
omit [FloatOps F] in
theorem reached_at' (ck : Dev nD × Fin 34) :
    (bigSep Finset.univ fun ck : Dev nD × Fin 34 => (reached ER (kcell ck) 0 : sProp 𝕄)) ⊢ reached ER (kcell ck) 0 :=
  bigSep_elim (Finset.mem_univ ck)
theorem inv_at (K : Dev nD × Fin 34 → ℕ) (ck : Dev nD × Fin 34) : records m K ⊢ cellInv ER (meanRd m) (K ck) (kcell ck) := by
  unfold records; iintro ⟨H, -⟩; iapply (inv_at' m K ck); iexact H
theorem reached_at (K : Dev nD × Fin 34 → ℕ) (ck : Dev nD × Fin 34) : records m K ⊢ reached ER (kcell ck) 0 := by
  unfold records; iintro ⟨-, H⟩; iapply (reached_at' (F := F) ck); iexact H

theorem inv_bar (K : Dev nD × Fin 34 → ℕ) (c : Dev nD) : records m K ⊢ cellInv ER (meanRd m) (K (c, 0)) (barCell c) := inv_at m K (c, 0)
theorem inv_copy (K : Dev nD × Fin 34 → ℕ) (c : Dev nD) : records m K ⊢ cellInv ER (meanRd m) (K (c, 1)) (copyCell c) := by
  rw [← kcell_copy]; exact inv_at m K (c, 1)
theorem inv_send (K : Dev nD × Fin 34 → ℕ) (c j : Dev nD) : records m K ⊢ cellInv ER (meanRd m) (K (c, sendIx j)) (sendCell c j) := by
  rw [← kcell_send]; exact inv_at m K (c, sendIx j)
theorem inv_recv (K : Dev nD × Fin 34 → ℕ) (c j : Dev nD) : records m K ⊢ cellInv ER (meanRd m) (K (c, recvIx j)) (recvCell c j) := by
  rw [← kcell_recv]; exact inv_at m K (c, recvIx j)
theorem reached_bar (K : Dev nD × Fin 34 → ℕ) (c : Dev nD) : records m K ⊢ reached ER (barCell c) 0 := reached_at m K (c, 0)
theorem reached_copy (K : Dev nD × Fin 34 → ℕ) (c : Dev nD) : records m K ⊢ reached ER (copyCell c) 0 := by
  rw [← kcell_copy]; exact reached_at m K (c, 1)
theorem reached_send (K : Dev nD × Fin 34 → ℕ) (c j : Dev nD) : records m K ⊢ reached ER (sendCell c j) 0 := by
  rw [← kcell_send]; exact reached_at m K (c, sendIx j)
theorem reached_recv (K : Dev nD × Fin 34 → ℕ) (c j : Dev nD) : records m K ⊢ reached ER (recvCell c j) 0 := by
  rw [← kcell_recv]; exact reached_at m K (c, recvIx j)

/-- Device `c`'s positions: round 0, nothing taken, of its barrier cell, its copy cell, and its send and receive cells
    by the offset of the slot's device. -/
def positions (c : Dev nD) : sProp 𝕄 :=
  iprop(atPos ER (barCell c) 0 ∅ 0 ∗ atPos ER (copyCell c) 0 ∅ 0
    ∗ (bigSep Finset.univ fun e : Fin 16 => atPos ER (sendCell c (peer c e)) 0 ∅ 0)
    ∗ (bigSep Finset.univ fun e : Fin 16 => atPos ER (recvCell c (peer c e)) 0 ∅ 0))

/-- The tokens of the duties device `c` pays towards the device `d` places after it: that device's barrier duty, its
    receive duty for `c`, and `c`'s own send duty for the copy to it. -/
def payTok (c : Dev nD) (d : Fin 16) : sProp 𝕄 :=
  iprop(dutyTok ER (barCell (peer c d)) 0 (neg d) ∗ dutyTok ER (recvCell (peer c d) c) 0 0 ∗ dutyTok ER (sendCell c (peer c d)) 0 0)
def payToks (c : Dev nD) : sProp 𝕄 :=
  iprop(dutyTok ER (copyCell c) 0 0 ∗ bigSep (Finset.univ.erase (0 : Fin 16)) fun d => payTok c d)

def ghost (K : Dev nD × Fin 34 → ℕ) (c : Dev nD) : sProp 𝕄 := iprop(records m K ∗ positions c ∗ payToks c)

/-- The credit tokens the launch deals device `c`: fifteen units on its barrier cell, one row's credit on each of
    its fifteen receive cells. -/
def creds (c : Dev nD) : sProp 𝕄 :=
  iprop(cred (tallyAt (barCell c) () 15) ∗ bigSep (Finset.univ.erase (0 : Fin 16)) fun e => cred (tallyAt (recvCell c (peer c e)) () N))

/-- Whole buffers of device `c`. -/
def argPts (c : Dev nD) : sProp 𝕄 := (((c : Thread nD τ).loc main_arg0) ↦{fullShare} xinH m c : sProp 𝕄)
def xvAny (c : Dev nD) : sProp 𝕄 := iprop(∃ f : Buf (Elt F) ((c : Thread nD τ).loc cc0_scratch0), ((c : Thread nD τ).loc cc0_scratch0) ↦{fullShare} f)
def gAny (c : Dev nD) : sProp 𝕄 := iprop(∃ f : Buf (Elt F) ((c : Thread nD τ).loc cc0_scratch1), ((c : Thread nD τ).loc cc0_scratch1) ↦{fullShare} f)

def start (c : Dev nD) : sProp 𝕄 := iprop((∃ K, ghost m K c) ∗ creds c ∗ levAts L lv ∗ argPts m c)

def Φ₀ (c : Dev nD) : sProp 𝕄 := iprop(start m c ∗ xvAny c ∗ gAny c)
/-- After the body: the argument block untouched, the scratch buffers whole again, every own cell closed at zero. -/
def Φ₁ (c : Dev nD) : sProp 𝕄 :=
  iprop(argPts m c ∗ xvAny c ∗ gAny c ∗ semVal (copyCell c) 0
    ∗ (bigSep Finset.univ fun e : Fin 16 => semVal (sendCell c (peer c e)) 0)
    ∗ (bigSep Finset.univ fun e : Fin 16 => semVal (recvCell c (peer c e)) 0))

/-- The result as the output staging buffer's contents. -/
def outB (c : Dev nD) : (cc0_stg0_0 : Ref sig .tc).ty.Contents (Elt F) := outv m

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outB m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body runs from, at the names `K` of the cells' invariants. -/
def bodyPre (K : Dev nD × Fin 34 → ℕ) (c : Dev nD) : sProp 𝕄 :=
  iprop((ghost m K c ∗ creds c ∗ levAts L lv ∗ argPts m c ∗ xvAny c ∗ gAny c)
    ∗ (dats m ρ 0 c).owesAt () t₀.castSucc
    ∗ (∃ d, stg c cc0_stg0_0 ((dats m ρ 0 c).before (0 : Fin 1) t₀ d)))

/-- What it ends with. -/
def bodyPost (c : Dev nD) : sProp 𝕄 :=
  iprop(Φ₁ m c ∗ (dats m ρ 0 c).owesAt () t₀.succ ∗ stg c cc0_stg0_0 (outB m c))

end Cert.KernelIdeal.Mean

end
-- ==== Proof.Rows.lean ====
/-
  The gather buffer row by row. The 16 × 256 buffer of a device is the disjoint union of its sixteen rows, so a
  points-to of the whole buffer is the separating conjunction of the rows' points-tos; a row's points-to splits
  along the tree of shares dealt to the copies that read it; what lies off a row does not matter to its
  points-to; and what a store of a device's own scaled column sums, or a landed copy of a peer's row, leaves in a
  row is that row of the gathered buffer.
-/
import proofs.«900953_g7700000000000954_dist_mean_ax0_shard0_i_m512_n256_v7x_i16_f32_1_alg».proof.Proof.Proto
import Idealize.ShloMosaic.Rules.PointsTo
import Idealize.ShloMosaic.Lib.Pipeline.Value
import Idealize.ShloMosaic.Lib.ValueIdx

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Which indices a row holds -/

/-- An index of the buffer lies in row `j` exactly when its row coordinate is `j`. -/
theorem mem_row (j : Dev nD) (i : S16x256.Idx) :
    i ∈ (rowM j : Memref sig .tc .vmem S1x256 .f32).view.set ↔ (i 0).val = j.val := by
  have e : (rowM j : Memref sig .tc .vmem S1x256 .f32).view.set
      = (Rect.unit (s := S16x256) ![j.val, 0] S1x256.size (rowInb j)).set := View.set_slice_whole cc0_scratch1 _
  rw [e, Rect.mem_set_unit]
  constructor
  · intro h
    have h0 := h 0
    have e0 : (![j.val, 0] : Fin 2 → Nat) 0 = j.val := rfl
    have s0 : S1x256.size 0 = 1 := rfl
    rw [e0, s0] at h0
    omega
  · intro h a
    match a with
    | ⟨0, _⟩ =>
      show j.val ≤ (i 0).val ∧ (i 0).val < j.val + 1
      omega
    | ⟨1, _⟩ =>
      show 0 ≤ (i 1).val ∧ (i 1).val < 0 + 256
      have := ValueIdx.idx2_lt1 i
      omega

/-! ## The buffer is its rows -/

theorem rows_cover (c : Dev nD) (q : PosShare TreeShare) (f : Buf (Elt F) ((c : Thread nD τ).loc cc0_scratch1)) :
    ((((c : Thread nD τ).loc cc0_scratch1) ↦{q} f) : sProp 𝕄)
      = bigSep Finset.univ (fun e : Fin 16 => rowAt c (peer c e) q f) := by
  have hU : (Finset.univ : Finset (Idx ((c : Thread nD τ).loc cc0_scratch1)))
      = (Finset.univ : Finset (Fin 16)).biUnion
          (fun e : Fin 16 => (rowM (peer c e) : Memref sig .tc .vmem S1x256 .f32).view.set) := by
    ext i
    simp only [Finset.mem_univ, Finset.mem_biUnion, true_and, true_iff]
    refine ⟨dist c ⟨(i 0).val, (i 0).isLt⟩, ?_⟩
    rw [peer_dist]
    exact (mem_row _ i).mpr rfl
  rw [hU, pointsTo_biUnion]
  · rfl
  · intro e _ e' _ hne
    refine Finset.disjoint_left.mpr fun i hi hi' => hne (peer_inj c (Fin.ext ?_))
    rw [← (mem_row _ i).mp hi, ← (mem_row _ i).mp hi']

/-! ## A row's points-to along the shares -/

theorem share_full (s j : Dev nD) (f : Buf (Elt F) ((rowM j).view.loc (s : Thread nD τ))) :
    (rowAt (F := F) s j fullShare f) ⊣⊢ iprop(rowAt s j (restS 0) f ∗ rowAt s j keepS f) :=
  pointsTo_share (PosShare.mem_left_op_right fullShare)

theorem share_step (s j : Dev nD) (n : ℕ) (f : Buf (Elt F) ((rowM j).view.loc (s : Thread nD τ))) :
    (rowAt (F := F) s j (restS n) f) ⊣⊢ iprop(rowAt s j (pieceS (n + 1)) f ∗ rowAt s j (restS (n + 1)) f) :=
  pointsTo_share (PosShare.mem_left_op_right (restS n))

/-! ## What lies off a row does not matter -/

theorem row_congr (s j : Dev nD) (q : PosShare TreeShare) (f g : Buf (Elt F) ((rowM j).view.loc (s : Thread nD τ)))
    (h : ∀ i ∈ (rowM j).view.set, f i = g i) :
    rowAt (F := F) s j q f = rowAt s j q g :=
  pointsTo_congr h

/-! ## What a row holds after a store or a landed copy -/

/-- Where row `j`'s view puts its index `y`: row `j`, column `y 1`. -/
theorem row_emb (j : Dev nD) (y : S1x256.Idx) :
    (rowM j : Memref sig .tc .vmem S1x256 .f32).view.emb y = (ValueIdx.ix2 (n0 := 16) (n1 := 256) j (y 1)) := by
  funext a
  refine Fin.ext ?_
  match a with
  | ⟨0, _⟩ =>
    show j.val + 1 * (y 0).val = j.val
    have := ValueIdx.idx2_lt0 y
    omega
  | ⟨1, _⟩ =>
    show 0 + 1 * (y 1).val = (y 1).val
    omega

/-- An index of a one-row shape is `(0, its column)`. -/
theorem row_idx_eq (y : S1x256.Idx) : y = ValueIdx.ix2 (0 : Fin 1) (y 1) := by
  funext a
  match a with
  | ⟨0, _⟩ =>
    refine Fin.ext ?_
    show (y 0).val = 0
    have := ValueIdx.idx2_lt0 y
    omega
  | ⟨1, _⟩ => rfl

/-- The store of a device's own scaled column sums into its own row leaves there that row of the gathered buffer. -/
theorem row_store_eq (c : Dev nD) (f : Buf (Elt F) ((rowM c).view.loc (c : Thread nD τ))) :
    ∀ i ∈ (rowM c).view.set, (rowM c).view.write (Elt F) f (k0_pay1 (xin m c)) Finset.univ i = gathB m c i := by
  intro i hi
  obtain ⟨y, rfl⟩ := View.exists_emb_of_mem_set _ hi
  rw [View.write_emb_of_mem _ _ (Finset.mem_univ y)]
  show k0_pay1 (xin m c) y = gath m ((rowM c : Memref sig .tc .vmem S1x256 .f32).view.emb y)
  rw [row_emb]
  exact congrArg (k0_pay1 (xin m c)) (row_idx_eq y)

/-- A row copied from one device's gathered buffer into another device's buffer is the gathered buffer's row there:
    the gathered buffer is the same function on every device. -/
theorem row_land_eq (s t j : Dev nD) (fd : Buf (Elt F) ((rowM j).view.loc (t : Thread nD τ))) :
    ∀ i ∈ (rowM j).view.set,
      (rowM j).view.write (Elt F) fd ((rowM j).view.read (Elt F) (gathB m s)) Finset.univ i = gathB m t i := by
  intro i hi
  obtain ⟨y, rfl⟩ := View.exists_emb_of_mem_set _ hi
  rw [View.write_emb_of_mem _ _ (Finset.mem_univ y), View.read_apply]
  rfl

/-! ## The final load of the whole buffer -/

theorem off00_eq_zero : (![0, 0] : Fin 2 → Nat) = fun _ => 0 := funext fun a => by fin_cases a <;> rfl

/-- The load of the whole gather buffer, once it holds the gathered rows, reads them. -/
theorem whole_read (c : Dev nD) :
    (gM : Memref sig .tc .vmem S16x256 .f32).view.readAt (Elt F)
        (Rect.unit (s := S16x256) ![0, 0] S16x256.size inb_S16x256_S16x256_0_0).toLoadRect (gathB m c) = gath m :=
  Memref.readAt_unit_zero (Elt F) cc0_scratch1 off00_eq_zero _ _

/-- info: 'Cert.KernelIdeal.Mean.rows_cover' depends on axioms: [propext, Classical.choice, Quot.sound] -/
#guard_msgs in #print axioms rows_cover

end Cert.KernelIdeal.Mean

end
-- ==== Proof.Steps.lean ====
/-
  One rule per kind of step of the body, at a symbolic device and a symbolic peer offset.

  A device's body is straight-line: fifteen signals, the local copy and its wait, the store of its own row, the
  barrier wait, fifteen remote copies, fifteen receive waits, the final load and store, fifteen send waits. Each
  rule below takes the body's state before one such step to its state after it; the equations among its premises
  identify the kernel's own spelling of a device, a row or a semaphore slot with its closed form.
-/
import proofs.«900953_g7700000000000954_dist_mean_ax0_shard0_i_m512_n256_v7x_i16_f32_1_alg».proof.Proof.Rows

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the core owes, under whatever pairs its waits have recorded. -/
def owesE (c : Dev nD) (O : CellTallies nD τ sig Unit) : sProp 𝕄 := iprop(∃ W, owes (c : Thread nD τ) O W)

/-! ## A signal -/

/-- What device `c` hands over with its signal to the device `d` places after it: the token of that device's barrier
    duty, and its own row for that device, to be written by it. -/
def sigRes (c : Dev nD) (d : Fin 16) : sProp 𝕄 :=
  iprop(dutyTok ER (barCell (peer c d)) 0 (neg d) ∗ ∃ f, rowAt (F := F) c (peer c d) fullShare f)

theorem step_signal (K : Dev nD × Fin 34 → ℕ) (c : Dev nD) (d : Fin 16) (hd : d ≠ 0) (l : List (Fin 16)) (R : CellTallies nD τ sig Unit)
    {dv : Dev nD} (hdv : dv = peer c d)
    {α : Type} {Q : α → sProp 𝕄} {k : PUnit → Prog (TpuEff nD τ sig (Elt F) Λ₀ .tc) α} :
    iprop(records m K ∗ owesE c (R + owedSig c (d :: l)) ∗ sigRes c d)
      ⊢ iprop((owesE c (R + owedSig c l) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((dv : Dev nD) : Thread nD τ) barS (1#32).toNat) k) Q) := by
  subst hdv
  unfold owesE sigRes
  iintro ⟨#HR, ⟨%W, HO⟩, Htok, ⟨%f, Hrow⟩⟩ Hk
  iapply (Rounds.wp_signal 𝒱₀ ER (meanRd m) (c : Thread nD τ) none (dst := (peer c d : Thread nD τ)) (κ := K (peer c d, 0))
      (d := neg d) (by rw [duties_bar]; exact Finset.mem_erase.mpr ⟨neg_ne_zero d hd, Finset.mem_univ _⟩)
      ((amount_bar m (peer c d) (neg d)).trans (by decide)) () (R + owedSig c l) (owedSig_cons c d l R)) $$ [HO Htok Hrow] [Hk]
  · isplitr; · iapply (inv_bar m K (peer c d)); iexact HR
    isplitl [HO]; · iexact HO
    isplitl [Htok]; · iexact Htok
    isplitl [Hrow]
    · rw [payload_bar]; unfold barPay; rw [peer_peer_neg]
      isplitl [Hrow]; · iexists f; iexact Hrow
      iapply (reached_recv m K c (peer c d)); iexact HR
    · iapply (reached_bar m K (peer c d)); iexact HR
  · iintro HO; iapply Hk; iexists W; iexact HO

/-! ## A wait for the whole round of one of the core's own cells -/

theorem wait_round (c : Dev nD) {κ : ℕ} {sm : SemLoc sig} {k' : ℕ} {w : TpuEff nD τ sig (Elt F) Λ₀ (c : Thread nD τ).2 PUnit}
    (hw : ∀ Kk : PUnit → sProp 𝕄, wpE' (defs₀ (F := F)) 𝒱₀ (c : Thread nD τ) none PendingWaitsCtx.empty Set.univ w Kk = waitSpec (c : Thread nD τ) Set.univ sm k' Kk)
    (O : CellTallies nD τ sig Unit) (hk : 0 + k' = (meanRd m).expect ((c : Thread nD τ), sm) 0)
    {α : Type} {Q : α → sProp 𝕄} {k : PUnit → Prog (TpuEff nD τ sig (Elt F) Λ₀ .tc) α} :
    iprop(cellInv ER (meanRd m) κ ((c : Thread nD τ), sm) ∗ cred (tallyAt ((c : Thread nD τ), sm) () k') ∗ owesE c O
        ∗ MayWait (c : Thread nD τ) sm () O ∗ atPos ER ((c : Thread nD τ), sm) 0 ∅ 0)
      ⊢ iprop(((owesE c O ∗ atPos ER ((c : Thread nD τ), sm) (0 + 1) ∅ 0
              ∗ bigSep ((meanRd m).duties ((c : Thread nD τ), sm) 0 \ ∅) (fun d => (meanRd m).payload ((c : Thread nD τ), sm) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold owesE
  iintro ⟨#HI, Hc, ⟨%W, HO⟩, HM, Hat⟩ Hk
  iapply (Rounds.wp_wait_rest_token 𝒱₀ ER (meanRd m) (c : Thread nD τ) none (κ := κ) hw (Set.mem_univ _) () (O := O) (W := W) (R := 0) (m := 0) (T := ∅) hk)
    $$ [Hc HO HM Hat] [Hk]
  · isplitr; · iexact HI
    isplitl [Hc]; · iexact Hc
    isplitl [HO]; · iexact HO
    isplitl [HM]; · iexact HM
    iexact Hat
  · iintro ⟨HO, Hat, -, Hpay⟩
    iapply Hk
    isplitl [HO]; · iexists _; iexact HO
    isplitl [Hat]; · iexact Hat
    iexact Hpay

/-! ## A remote copy of the core's own row -/

/-- What the copy to the device `e` places after `c` uses up: that device's row `c` (received with its barrier signal),
    and the tokens of the two duties the copy pays. -/
def sendRes (c : Dev nD) (e : Fin 16) : sProp 𝕄 :=
  iprop(barPay (F := F) c e ∗ dutyTok ER (sendCell c (peer c e)) 0 0 ∗ dutyTok ER (recvCell (peer c e) c) 0 0)

theorem step_send (K : Dev nD × Fin 34 → ℕ) (c : Dev nD) (e : Fin 16) (he0 : e ≠ 0) (n : ℕ) (he : e.val = n + 1) (l : List (Fin 16))
    {src dst : Memref sig .tc .vmem S1x256 .f32} (hs : src = rowM c) (hd : dst = rowM c)
    {dv : Dev nD} (hdv : dv = peer c e) {sS sR : DmaSem sig} (hsS : sS = sendSem (peer c e)) (hsR : sR = recvSem c)
    {hsc : (dst : Memref sig (Dev.tc dv : Thread nD τ).2.kind .vmem S1x256 .f32).view.ref.isScScratch = false}
    {hsrc : src.view.WordExact} {hdst : dst.view.WordExact}
    {hsem : DmaTarget.Typed .vmem (.dma sR) (.remote (Dev.tc dv : Thread nD τ) dst (.dma sS) hsc)}
    {α : Type} {Q : α → sProp 𝕄} {k : PUnit → Prog (TpuEff nD τ sig (Elt F) Λ₀ .tc) α} :
    iprop(records m K ∗ owesE c (owedCp c (e :: l)) ∗ rowAt c c (restS n) (gathB m c) ∗ sendRes c e)
      ⊢ iprop(((cred (tallyAt (sendCell c (peer c e)) () N) ∗ owesE c (owedCp c l) ∗ rowAt c c (restS (n + 1)) (gathB m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc dv : Thread nD τ) dst (.dma sS) hsc) (.dma sR) hsrc hdst hsem) k) Q) := by
  subst hs hd hdv hsS hsR
  unfold owesE sendRes barPay
  iintro ⟨#HR, ⟨%W, HO⟩, Hrow, ⟨⟨%fd, Hdst⟩, #Hrch⟩, HtS, HtR⟩ Hk
  ihave Hsp := (share_step (F := F) c c n (gathB m c)).1 $$ Hrow
  icases Hsp with ⟨Hpc, Hrest⟩
  unfold rowAt
  iapply (Rounds.wp_send_pointsTo 𝒱₀ ER (meanRd m) (c : Thread nD τ) none (c' := (Dev.tc (peer c e) : Thread nD τ))
      (src := rowM c) (dst := rowM c) (q := pieceS (n + 1)) (fs := gathB m c) (fd := fd)
      (κ₁ := K (c, sendIx (peer c e))) (κ₂ := K (peer c e, recvIx c))
      (r₁ := 0) (r₂ := 0) (d₁ := 0) (d₂ := 0)
      (by rw [duties_send m c (peer c e) (peer_ne c e he0)]; exact Finset.mem_singleton_self _)
      (by rw [duties_recv m (peer c e) c (fun h => peer_ne c e he0 h.symm)]; exact Finset.mem_singleton_self _)
      () () N rfl (amount_send m c (peer c e) 0) (amount_recv m (peer c e) c 0) (owedCp c l) (owedCp_cons c e l) (W := W)
      (by rw [payload_send]; unfold sendPay rowAt; rw [dist_peer, he])
      (by rw [payload_recv]; unfold recvPay
          exact Entails.of_eq (row_congr (F := F) (peer c e) c fullShare _ _ (row_land_eq m c (peer c e) c fd))))
    $$ [HO Hpc Hdst HtS HtR] [Hk Hrest]
  · isplitr; · iapply (inv_send m K c (peer c e)); iexact HR
    isplitr; · iapply (inv_recv m K (peer c e) c); iexact HR
    isplitl [Hpc]; · iexact Hpc
    isplitl [Hdst]; · iexact Hdst
    isplitl [HO]; · iexact HO
    isplitl [HtS]; · iexact HtS
    isplitr; · iapply (reached_send m K c (peer c e)); iexact HR
    isplitl [HtR]; · iexact HtR
    iexact Hrch
  · iintro ⟨Hc, HO⟩
    iapply Hk
    isplitl [Hc]; · iexact Hc
    isplitl [HO]; · iexists W; iexact HO
    iexact Hrest

/-! ## Whole buffers as their memrefs' views -/

omit [FloatOps F] in
theorem xH_set : (xH : Memref sig .tc .hbm S512x256 .f32).view.set = Finset.univ := View.set_whole _
omit [FloatOps F] in
theorem xV_set : (xV : Memref sig .tc .vmem S512x256 .f32).view.set = Finset.univ := View.set_whole _
omit [FloatOps F] in
theorem gM_set : (gM : Memref sig .tc .vmem S16x256 .f32).view.set = Finset.univ := View.set_whole _
omit [FloatOps F] in
theorem oM_set : (oM : Memref sig .tc .vmem S1x256 .f32).view.set = Finset.univ := View.set_whole _

/-- The local copy lands the argument block in the VMEM buffer. -/
theorem copy_land (c : Dev nD) (f : Buf (Elt F) ((xV : Memref sig .tc .vmem S512x256 .f32).view.loc (c : Thread nD τ))) :
    (xV : Memref sig .tc .vmem S512x256 .f32).view.write (Elt F) f ((xH : Memref sig .tc .hbm S512x256 .f32).view.read (Elt F) (xinH m c)) Finset.univ = xinV m c := by
  show (View.whole cc0_scratch0).write (Elt F) f ((View.whole main_arg0).read (Elt F) (xin m c)) Finset.univ = xin m c
  rw [View.read_whole]
  exact View.write_whole_univ _ _ _

/-! ## The local copy -/

theorem step_copy (K : Dev nD × Fin 34 → ℕ) (c : Dev nD)
    {h1 : (xH : Memref sig .tc .hbm S512x256 .f32).view.WordExact} {h2 : (xV : Memref sig .tc .vmem S512x256 .f32).view.WordExact}
    {h3 : DmaTarget.Typed (nD := nD) (τ := τ) .hbm (.dma copySem) (DmaTarget.here (p := (Proc.tc : Proc τ)) (xV : Memref sig .tc .vmem S512x256 .f32))}
    {α : Type} {Q : α → sProp 𝕄} {k : PUnit → Prog (TpuEff nD τ sig (Elt F) Λ₀ .tc) α} :
    iprop(records m K ∗ argPts m c ∗ xvAny c ∗ dutyTok ER (copyCell c) 0 0)
      ⊢ iprop((cred (tallyAt (copyCell c) () N1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xH : Memref sig .tc .hbm S512x256 .f32) (DmaTarget.here (p := (Proc.tc : Proc τ)) (xV : Memref sig .tc .vmem S512x256 .f32)) (.dma copySem) h1 h2 h3) k) Q) := by
  unfold argPts xvAny
  iintro ⟨#HR, Harg, ⟨%f, Hxv⟩, Htok⟩ Hk
  iapply (Rounds.wp_copy_pointsTo 𝒱₀ ER (meanRd m) (c : Thread nD τ) none (src := xH) (dst := xV) (q := fullShare) (fs := xinH m c) (fd := f)
      (κ := K (c, 1)) (r := 0) (d := 0) (by rw [duties_copy]; exact Finset.mem_singleton_self _) () N1 rfl (amount_copy m c 0)
      (by rw [payload_copy, copy_land]; unfold copyPay; exact BI.Entails.refl _)) $$ [Harg Hxv Htok] [Hk]
  · isplitr; · iapply (inv_copy m K c); iexact HR
    isplitl [Harg]; · rw [xH_set]; iexact Harg
    isplitl [Hxv]; · rw [xV_set]; iexact Hxv
    isplitl [Htok]; · iexact Htok
    iapply (reached_copy m K c); iexact HR
  · iexact Hk

/-! ## The waits -/

theorem step_wait_copy (K : Dev nD × Fin 34 → ℕ) (c : Dev nD) (l₁ l₂ : List (Fin 16))
    {h1 : (xH : Memref sig .tc .hbm S512x256 .f32).view.WordExact} {h2 : (xV : Memref sig .tc .vmem S512x256 .f32).view.WordExact}
    {α : Type} {Q : α → sProp 𝕄} {k : PUnit → Prog (TpuEff nD τ sig (Elt F) Λ₀ .tc) α} :
    iprop(records m K ∗ levAts L lv ∗ cred (tallyAt (copyCell c) () N1) ∗ owesE c (owedCp c l₁ + owedSig c l₂) ∗ atPos ER (copyCell c) 0 ∅ 0)
      ⊢ iprop(((owesE c (owedCp c l₁ + owedSig c l₂) ∗ atPos ER (copyCell c) 1 ∅ 0 ∗ copyPay m c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 copySem (xH : Memref sig .tc .hbm S512x256 .f32) (xV : Memref sig .tc .vmem S512x256 .f32) h1 h2) k) Q) := by
  iintro ⟨#HR, #Hlev, Hc, HO, Hat⟩ Hk
  iapply (wait_round m c (κ := K (c, 1)) (sm := .dma copySem) (k' := N1) (wpE_waitDma2_eq 𝒱₀ (c : Thread nD τ) none Set.univ) (owedCp c l₁ + owedSig c l₂)
      (by rw [Nat.zero_add]; exact (expect_copy m c).symm)) $$ [Hc HO Hat] [Hk]
  · isplitr; · iapply (inv_copy m K c); iexact HR
    isplitl [Hc]; · iexact Hc
    isplitl [HO]; · iexact HO
    isplitr; · iapply (mayWait_low c (.dma copySem) (lv_copy c ()) l₁ l₂); iexact Hlev
    iexact Hat
  · iintro ⟨HO, Hat, Hpay⟩
    iapply Hk
    isplitl [HO]; · iexact HO
    isplitl [Hat]; · iexact Hat
    ihave Hp := (Entails.of_eq (rest_copy m c)) $$ Hpay
    iexact Hp

theorem step_wait_bar (K : Dev nD × Fin 34 → ℕ) (c : Dev nD) (l : List (Fin 16))
    {α : Type} {Q : α → sProp 𝕄} {k : PUnit → Prog (TpuEff nD τ sig (Elt F) Λ₀ .tc) α} :
    iprop(records m K ∗ levAts L lv ∗ cred (tallyAt (barCell c) () 15) ∗ owesE c (owedCp c l) ∗ atPos ER (barCell c) 0 ∅ 0)
      ⊢ iprop(((owesE c (owedCp c l) ∗ atPos ER (barCell c) 1 ∅ 0 ∗ bigSep (Finset.univ.erase (0 : Fin 16)) (fun e => barPay (F := F) c e))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (15#32).toNat) k) Q) := by
  have h15 : (15#32).toNat = 15 := by decide
  rw [h15]
  iintro ⟨#HR, #Hlev, Hc, HO, Hat⟩ Hk
  iapply (wait_round m c (κ := K (c, 0)) (sm := .reg barS) (k' := 15) (wpE_semWait_eq 𝒱₀ (c : Thread nD τ) none Set.univ) (owedCp c l)
      (by rw [Nat.zero_add]; exact (expect_bar m c).symm)) $$ [Hc HO Hat] [Hk]
  · isplitr; · iapply (inv_bar m K c); iexact HR
    isplitl [Hc]; · iexact Hc
    isplitl [HO]; · iexact HO
    isplitr; · iapply (mayWait_bar c l); iexact Hlev
    iexact Hat
  · iintro ⟨HO, Hat, Hpay⟩
    iapply Hk
    isplitl [HO]; · iexact HO
    isplitl [Hat]; · iexact Hat
    ihave Hp := (Entails.of_eq (rest_bar m c)) $$ Hpay
    iexact Hp

theorem step_wait_recv (K : Dev nD × Fin 34 → ℕ) (c : Dev nD) (e : Fin 16) (he0 : e ≠ 0)
    {sR : DmaSem sig} (hsR : sR = recvSem (peer c e)) {src dst : Memref sig .tc .vmem S1x256 .f32} (hd : dst = rowM (peer c e))
    {h1 : src.view.WordExact} {h2 : dst.view.WordExact}
    {α : Type} {Q : α → sProp 𝕄} {k : PUnit → Prog (TpuEff nD τ sig (Elt F) Λ₀ .tc) α} :
    iprop(records m K ∗ cred (tallyAt (recvCell c (peer c e)) () N) ∗ owesE c 0 ∗ atPos ER (recvCell c (peer c e)) 0 ∅ 0)
      ⊢ iprop(((owesE c 0 ∗ atPos ER (recvCell c (peer c e)) 1 ∅ 0 ∗ rowAt c (peer c e) fullShare (gathB m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst h1 h2) k) Q) := by
  subst hsR hd
  rw [← row_credit (peer c e)]
  iintro ⟨#HR, Hc, HO, Hat⟩ Hk
  iapply (wait_round m c (κ := K (c, recvIx (peer c e))) (sm := .dma (recvSem (peer c e))) (k' := (rowM (peer c e)).view.dmaCredit)
      (wpE_waitDma2_eq 𝒱₀ (c : Thread nD τ) none Set.univ) 0
      (by rw [Nat.zero_add, row_credit]; exact (expect_recv m c (peer c e) (peer_ne c e he0)).symm)) $$ [Hc HO Hat] [Hk]
  · isplitr; · iapply (inv_recv m K c (peer c e)); iexact HR
    isplitl [Hc]; · iexact Hc
    isplitl [HO]; · iexact HO
    isplitr; · rw [MayWait_zero]; iempintro
    iexact Hat
  · iintro ⟨HO, Hat, Hpay⟩
    iapply Hk
    isplitl [HO]; · iexact HO
    isplitl [Hat]; · iexact Hat
    ihave Hp := (Entails.of_eq (rest_recv m c (peer c e) (peer_ne c e he0))) $$ Hpay
    unfold recvPay; iexact Hp

theorem step_wait_send (K : Dev nD × Fin 34 → ℕ) (c : Dev nD) (e : Fin 16) (he0 : e ≠ 0)
    {sS : DmaSem sig} (hsS : sS = sendSem (peer c e)) {src dst : Memref sig .tc .vmem S1x256 .f32} (hd : dst = rowM c)
    {h1 : src.view.WordExact} {h2 : dst.view.WordExact}
    {α : Type} {Q : α → sProp 𝕄} {k : PUnit → Prog (TpuEff nD τ sig (Elt F) Λ₀ .tc) α} :
    iprop(records m K ∗ cred (tallyAt (sendCell c (peer c e)) () N) ∗ owesE c 0 ∗ atPos ER (sendCell c (peer c e)) 0 ∅ 0)
      ⊢ iprop(((owesE c 0 ∗ atPos ER (sendCell c (peer c e)) 1 ∅ 0 ∗ rowAt c c (pieceS e.val) (gathB m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst h1 h2) k) Q) := by
  subst hsS hd
  rw [← row_credit c]
  iintro ⟨#HR, Hc, HO, Hat⟩ Hk
  iapply (wait_round m c (κ := K (c, sendIx (peer c e))) (sm := .dma (sendSem (peer c e))) (k' := (rowM c).view.dmaCredit)
      (wpE_waitDma2_eq 𝒱₀ (c : Thread nD τ) none Set.univ) 0
      (by rw [Nat.zero_add, row_credit]; exact (expect_send m c (peer c e) (peer_ne c e he0)).symm)) $$ [Hc HO Hat] [Hk]
  · isplitr; · iapply (inv_send m K c (peer c e)); iexact HR
    isplitl [Hc]; · iexact Hc
    isplitl [HO]; · iexact HO
    isplitr; · rw [MayWait_zero]; iempintro
    iexact Hat
  · iintro ⟨HO, Hat, Hpay⟩
    iapply Hk
    isplitl [HO]; · iexact HO
    isplitl [Hat]; · iexact Hat
    ihave Hp := (Entails.of_eq ((rest_send m c (peer c e) (peer_ne c e he0)).trans (by unfold sendPay; rw [dist_peer]))) $$ Hpay
    iexact Hp

/-! ## Closing the core's own cells -/

theorem duties_send_self (c : Dev nD) (r : ℕ) : (meanRd (F := F) m).duties (sendCell c c) r = ∅ := by
  dsimp only [meanRd]; split
  · rfl
  · simp only [classify_send]; exact if_pos trivial
theorem duties_recv_self (c : Dev nD) (r : ℕ) : (meanRd (F := F) m).duties (recvCell c c) r = ∅ := by
  dsimp only [meanRd]; split
  · rfl
  · simp only [classify_recv]; exact if_pos trivial

theorem close_copy (K : Dev nD × Fin 34 → ℕ) (c : Dev nD) :
    iprop(records m K ∗ atPos ER (copyCell c) 1 ∅ 0) ⊢ (|={Set.univ}=> semVal (copyCell c) 0 : sProp 𝕄) := by
  iintro ⟨#HR, Hat⟩
  iapply (Rounds.cell_close ER (meanRd m) (Set.mem_univ (K (c, 1))) (fun h => h) (R := 1) (duties_later m (copyCell c)))
  isplitr; · iapply (inv_copy m K c); iexact HR
  iexact Hat

/-- The round a send or receive cell stands at after the body: the unused slot (the device's own) at 0, the others at 1. -/
def endRound (e : Fin 16) : ℕ := if e = 0 then 0 else 1

theorem close_send (K : Dev nD × Fin 34 → ℕ) (c : Dev nD) (e : Fin 16) :
    iprop(records m K ∗ atPos ER (sendCell c (peer c e)) (endRound e) ∅ 0) ⊢ (|={Set.univ}=> semVal (sendCell c (peer c e)) 0 : sProp 𝕄) := by
  iintro ⟨#HR, Hat⟩
  iapply (Rounds.cell_close ER (meanRd m) (Set.mem_univ (K (c, sendIx (peer c e)))) (fun h => h) (R := endRound e)
    (fun r hr => by
      unfold endRound at hr
      by_cases he : e = 0
      · subst he; rw [peer_zero]; exact duties_send_self m c r
      · rw [if_neg he] at hr; exact duties_later m _ r hr))
  isplitr; · iapply (inv_send m K c (peer c e)); iexact HR
  iexact Hat

theorem close_recv (K : Dev nD × Fin 34 → ℕ) (c : Dev nD) (e : Fin 16) :
    iprop(records m K ∗ atPos ER (recvCell c (peer c e)) (endRound e) ∅ 0) ⊢ (|={Set.univ}=> semVal (recvCell c (peer c e)) 0 : sProp 𝕄) := by
  iintro ⟨#HR, Hat⟩
  iapply (Rounds.cell_close ER (meanRd m) (Set.mem_univ (K (c, recvIx (peer c e)))) (fun h => h) (R := endRound e)
    (fun r hr => by
      unfold endRound at hr
      by_cases he : e = 0
      · subst he; rw [peer_zero]; exact duties_recv_self m c r
      · rw [if_neg he] at hr; exact duties_later m _ r hr))
  isplitr; · iapply (inv_recv m K c (peer c e)); iexact HR
  iexact Hat

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_sends (K : Dev nD × Fin 34 → ℕ) (c : Dev nD) :
    iprop(records m K ∗ bigSep Finset.univ fun e : Fin 16 => atPos ER (sendCell c (peer c e)) (endRound e) ∅ 0)
      ⊢ (|={Set.univ}=> bigSep Finset.univ fun e : Fin 16 => semVal (sendCell c (peer c e)) 0 : sProp 𝕄) :=
  (bigSep_with_persistent (R := records m K) fun e _ => close_send m K c e).trans (bigSep_fupd _ _)
theorem close_recvs (K : Dev nD × Fin 34 → ℕ) (c : Dev nD) :
    iprop(records m K ∗ bigSep Finset.univ fun e : Fin 16 => atPos ER (recvCell c (peer c e)) (endRound e) ∅ 0)
      ⊢ (|={Set.univ}=> bigSep Finset.univ fun e : Fin 16 => semVal (recvCell c (peer c e)) 0 : sProp 𝕄) :=
  (bigSep_with_persistent (R := records m K) fun e _ => close_recv m K c e).trans (bigSep_fupd _ _)

end Cert.KernelIdeal.Mean

end
-- ==== Proof.Body.lean ====
/-
  One device's body, run from the protocol's ghost state to the gathered result.

  The gather buffer is cut into its sixteen rows. The fifteen rows of the peers go out with the barrier signals, so
  that each peer may write its own; the device's own row is stored, and its left half-share is dealt piece by piece
  to the fifteen copies reading it, while the right half stays for the final load. The barrier wait brings in every
  peer's row for this device; each receive wait brings back one row of the own buffer, now holding that peer's
  scaled column sums. With all sixteen right halves at hand the whole buffer is loaded and summed. The send waits
  bring the pieces of the own row back, the shares are rejoined, every cell is closed.
-/
import proofs.«900953_g7700000000000954_dist_mean_ax0_shard0_i_m512_n256_v7x_i16_f32_1_alg».proof.Proof.Steps

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sixteen, written out -/

omit [FloatOps F] in
theorem univ16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem erase16 (Φ : Fin 16 → sProp 𝕄) :
    bigSep (Finset.univ.erase (0 : Fin 16)) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq offs (by decide) (by decide) Φ

/-- The gather buffer at one share and one valuation is the device's own row and the fifteen rows of its peers. -/
theorem rows16 (c : Dev nD) (q : PosShare TreeShare) (f : Buf (Elt F) ((c : Thread nD τ).loc cc0_scratch1)) :
    ((((c : Thread nD τ).loc cc0_scratch1) ↦{q} f) : sProp 𝕄)
      = iprop(rowAt c c q f ∗ bigSep (Finset.univ.erase (0 : Fin 16)) (fun e => rowAt c (peer c e) q f)) := by
  rw [rows_cover, bigSep_univ_at _ (0 : Fin 16), peer_zero]

/-! ## Local loads and stores -/

abbrev r0x : Rect S512x256 := Rect.unit (s := S512x256) ![0, 0] S512x256.size inb_S512x256_S512x256_0_0
abbrev r0g : Rect S16x256 := Rect.unit (s := S16x256) ![0, 0] S16x256.size inb_S16x256_S16x256_0_0
abbrev r0o : Rect S1x256 := Rect.unit (s := S1x256) ![0, 0] S1x256.size inb_S1x256_S1x256_0_0

omit [FloatOps F] in
theorem read_xv (f : (cc0_scratch0 : Ref sig .tc).ty.Contents (Elt F)) :
    (xV : Memref sig .tc .vmem S512x256 .f32).view.readAt (Elt F) r0x.toLoadRect f = f :=
  Memref.readAt_unit_zero (Elt F) cc0_scratch0 off00_eq_zero _ f
omit [FloatOps F] in
theorem write_out (f w : (cc0_stg0_0 : Ref sig .tc).ty.Contents (Elt F)) :
    ((oM : Memref sig .tc .vmem S1x256 .f32).access r0o : View sig .tc _ _ _).write (Elt F) f w Finset.univ = w :=
  Memref.write_access_unit_zero_univ (Elt F) cc0_stg0_0 off00_eq_zero _ f w

/-- The (unused) load of the device's own row before its store. -/
theorem step_load_row (c : Dev nD) {off : Fin 2 → Nat} (hoff : off = ![c.val, 0]) {h : ∀ a, off a + S1x256.size a ≤ S16x256.size a}
    {hl : (gM : Memref sig .tc .vmem S16x256 .f32).view.LoadsAt (Rect.unit (s := S16x256) off S1x256.size h).toLoadRect}
    (q : PosShare TreeShare) (f : Buf (Elt F) ((rowM c).view.loc (c : Thread nD τ)))
    {α : Type} {Q : α → sProp 𝕄} {k : ((Rect.unit (s := S16x256) off S1x256.size h).toLoadRect.shape.Idx → Elt F .f32) → Prog (TpuEff nD τ sig (Elt F) Λ₀ .tc) α} :
    rowAt c c q f
      ⊢ iprop((rowAt c c q f -∗ wp frame (wpE (defs₀ (F := F)) 𝒱₀ (c : Thread nD τ) none) Set.univ
            (k ((gM : Memref sig .tc .vmem S16x256 .f32).view.readAt (Elt F) (Rect.unit (s := S16x256) off S1x256.size h).toLoadRect f)) Q)
          -∗ wp frame (wpE (defs₀ (F := F)) 𝒱₀ (c : Thread nD τ) none) Set.univ
              (.op (.load (gM : Memref sig .tc .vmem S16x256 .f32) (Rect.unit (s := S16x256) off S1x256.size h).toLoadRect hl) k) Q) := by
  subst hoff
  unfold rowAt
  exact wp_load 𝒱₀ (c : Thread nD τ) none Set.univ (m := gM)
    (show (gM : Memref sig .tc .vmem S16x256 .f32).view.setOn (Rect.unit (s := S16x256) ![c.val, 0] S1x256.size h).set
        ⊆ ((gM : Memref sig .tc .vmem S16x256 .f32).view.slice (Rect.unit (s := S16x256) ![c.val, 0] S1x256.size h)).set from
      (View.set_slice (gM : Memref sig .tc .vmem S16x256 .f32).view (Rect.unit (s := S16x256) ![c.val, 0] S1x256.size h)).symm.subset)

/-- The store of the device's own row. -/
theorem step_store_row (c : Dev nD) {off : Fin 2 → Nat} (hoff : off = ![c.val, 0]) {h : ∀ a, off a + S1x256.size a ≤ S16x256.size a}
    (w : S1x256.Idx → Elt F .f32)
    {hx : ((gM : Memref sig .tc .vmem S16x256 .f32).access (Rect.unit (s := S16x256) off S1x256.size h)).Stores Finset.univ}
    {hm : (Finset.univ : Finset (Rect.unit (s := S16x256) off S1x256.size h).shape.Idx) = Finset.univ ∨ ∀ a, (Rect.unit (s := S16x256) off S1x256.size h).stride a = 1}
    (f : Buf (Elt F) ((rowM c).view.loc (c : Thread nD τ)))
    {α : Type} {Q : α → sProp 𝕄} {k : PUnit → Prog (TpuEff nD τ sig (Elt F) Λ₀ .tc) α} :
    rowAt c c fullShare f
      ⊢ iprop((rowAt c c fullShare ((rowM c).view.write (Elt F) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (gM : Memref sig .tc .vmem S16x256 .f32) (Rect.unit (s := S16x256) off S1x256.size h) w Finset.univ hx hm) k) Q) := by
  subst hoff
  unfold rowAt
  exact wp_store 𝒱₀ (c : Thread nD τ) none Set.univ (m := gM) (r := Rect.unit (s := S16x256) ![c.val, 0] S1x256.size h) (Mk := Finset.univ) subset_rfl

/-! ## The repeated steps, as tactics over the hypotheses' names -/

set_option hygiene false in
/-- The signal to the device `d` places on: pays with that device's barrier token and hands it the row for it. -/
local macro "sig_step" d:term:max l:term:max dl:term:max tB:ident Hr:ident : tactic => do
  let tBf ← `(frameIdent| $tB:ident)
  let Hrf ← `(frameIdent| $Hr:ident)
  `(tactic| (
  iapply (step_signal m K c $d (by decide) $l (owedCp c offs) $dl) $$ [HO $tBf $Hrf]
  · unfold sigRes
    isplitr; · iexact HR
    isplitl [HO]; · iexact HO
    isplitl [$tB]; · iexact $tB
    iexists fg; iexact $Hr
  iintro HO))

set_option hygiene false in
/-- The copy to the device `e` places on, reading the own row through the next piece of its share. -/
local macro "send_step" e:term:max n:term:max l:term:max dl:term:max sl:term:max P:ident tS:ident tR:ident cS:ident : tactic => do
  let Pf ← `(frameIdent| $P:ident)
  let tSf ← `(frameIdent| $tS:ident)
  let tRf ← `(frameIdent| $tR:ident)
  `(tactic| (
  iapply (step_send m K c $e (by decide) $n rfl $l (row_own c) (row_own c) $dl $sl (recv_slot_own c)) $$ [HO Hrest $Pf $tSf $tRf]
  · unfold sendRes
    isplitr; · iexact HR
    isplitl [HO]; · iexact HO
    isplitl [Hrest]; · iexact Hrest
    isplitl [$P]; · iexact $P
    isplitl [$tS]; · iexact $tS
    iexact $tR
  iintro ⟨Hnew, HO, Hrest⟩
  irename Hnew => $cS))

set_option hygiene false in
/-- The wait for the row of the device `e` places on. -/
local macro "recv_step" e:term:max sl:term:max rl:term:max cV:ident aV:ident Hg:ident : tactic => do
  let cVf ← `(frameIdent| $cV:ident)
  let aVf ← `(frameIdent| $aV:ident)
  `(tactic| (
  iapply (step_wait_recv m K c $e (by decide) $sl $rl) $$ [$cVf HO $aVf]
  · isplitr; · iexact HR
    isplitl [$cV]; · iexact $cV
    isplitl [HO]; · iexact HO
    iexact $aV
  iintro ⟨HO, Hnew1, Hnew2⟩
  irename Hnew1 => $aV
  irename Hnew2 => $Hg))

set_option hygiene false in
/-- A landed row: its left half aside, its right half kept for the load. -/
local macro "half_step" e:term:max Hg:ident Hl:ident Hh:ident : tactic => do
  let Hgs ← `(specPat| $Hg:ident)
  `(tactic| (
  ihave Hsp := (share_full (F := F) c (peer c $e) (gathB m c)).1 $$ $Hgs
  icases Hsp with ⟨Hnew1, Hnew2⟩
  irename Hnew1 => $Hl
  irename Hnew2 => $Hh))

set_option hygiene false in
/-- The wait for the copy to the device `e` places on to have read its source. -/
local macro "swait_step" e:term:max sl:term:max cS:ident aS:ident Hp:ident : tactic => do
  let cSf ← `(frameIdent| $cS:ident)
  let aSf ← `(frameIdent| $aS:ident)
  `(tactic| (
  iapply (step_wait_send m K c $e (by decide) $sl (row_own c)) $$ [$cSf HO $aSf]
  · isplitr; · iexact HR
    isplitl [$cS]; · iexact $cS
    isplitl [HO]; · iexact HO
    iexact $aS
  iintro ⟨HO, Hnew1, Hnew2⟩
  irename Hnew1 => $aS
  irename Hnew2 => $Hp))

set_option hygiene false in
/-- A piece of the own row's share joined back. -/
local macro "join_step" n:term:max Hp:ident : tactic => do
  let Hpf ← `(frameIdent| $Hp:ident)
  `(tactic| (
  ihave Hrest := (share_step (F := F) c c $n (gathB m c)).2 $$ [$Hpf Hrest]
  · isplitl [$Hp]
    · iexact $Hp
    · iexact Hrest))

/-- The whole gather buffer at one share and one valuation, row by row. -/
theorem rows16' (c : Dev nD) (q : PosShare TreeShare) (f : Buf (Elt F) ((c : Thread nD τ).loc cc0_scratch1)) :
    ((((c : Thread nD τ).loc cc0_scratch1) ↦{q} f) : sProp 𝕄)
      = iprop(rowAt c c q f ∗ rowAt c (peer c 1) q f ∗ rowAt c (peer c 2) q f ∗ rowAt c (peer c 3) q f ∗ rowAt c (peer c 4) q f
          ∗ rowAt c (peer c 5) q f ∗ rowAt c (peer c 6) q f ∗ rowAt c (peer c 7) q f ∗ rowAt c (peer c 8) q f ∗ rowAt c (peer c 9) q f
          ∗ rowAt c (peer c 10) q f ∗ rowAt c (peer c 11) q f ∗ rowAt c (peer c 12) q f ∗ rowAt c (peer c 13) q f ∗ rowAt c (peer c 14) q f
          ∗ rowAt c (peer c 15) q f) := by
  rw [rows_cover, univ16, peer_zero]

omit [FloatOps F] in
/-- The whole gather buffer's full share is its left half and its right half. -/
theorem whole_share (c : Dev nD) (f : Buf (Elt F) ((c : Thread nD τ).loc cc0_scratch1)) :
    ((((c : Thread nD τ).loc cc0_scratch1) ↦{fullShare} f) : sProp 𝕄)
      ⊣⊢ iprop((((c : Thread nD τ).loc cc0_scratch1) ↦{restS 0} f) ∗ (((c : Thread nD τ).loc cc0_scratch1) ↦{keepS} f)) :=
  pointsTo_share (PosShare.mem_left_op_right fullShare)

theorem xv_back (c : Dev nD) :
    ((xV : Memref sig .tc .vmem S512x256 .f32).view.loc (c : Thread nD τ) ↦[(xV : Memref sig .tc .vmem S512x256 .f32).view.set]{fullShare} xinV m c : sProp 𝕄) ⊢ xvAny c := by
  unfold xvAny; rw [xV_set]; iintro H; iexists (xinV m c); iexact H
theorem arg_back (c : Dev nD) :
    ((xH : Memref sig .tc .hbm S512x256 .f32).view.loc (c : Thread nD τ) ↦[(xH : Memref sig .tc .hbm S512x256 .f32).view.set]{fullShare} xinH m c : sProp 𝕄) ⊢ argPts m c := by
  unfold argPts; rw [xH_set]

omit [FloatOps F] in
/-- Sixteen positions, the device's own slot at round 0 and the fifteen used ones at round 1, are the positions at
    the rounds the cells end at. -/
theorem ends16 (Ψ : Fin 16 → ℕ → sProp 𝕄) :
    iprop(Ψ 0 0 ∗ Ψ 1 1 ∗ Ψ 2 1 ∗ Ψ 3 1 ∗ Ψ 4 1 ∗ Ψ 5 1 ∗ Ψ 6 1 ∗ Ψ 7 1 ∗ Ψ 8 1 ∗ Ψ 9 1 ∗ Ψ 10 1 ∗ Ψ 11 1 ∗ Ψ 12 1 ∗ Ψ 13 1 ∗ Ψ 14 1 ∗ Ψ 15 1)
      ⊢ bigSep Finset.univ (fun e : Fin 16 => Ψ e (endRound e)) :=
  Entails.of_eq (univ16 (fun e : Fin 16 => Ψ e (endRound e))).symm

set_option maxRecDepth 65536 in
set_option maxHeartbeats 6400000 in
/-- The body, run from `bodyPre` one rule per effect in program order to `bodyPost`. -/
theorem sound_body (K : Dev nD × Fin 34 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _) cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
    k0_part19_skel k0_part20_skel k0_part21_skel k0_part22_skel k0_part23_skel k0_part24_skel k0_part25_skel k0_part26_skel k0_part27_skel
    k0_part28_skel k0_part29_skel k0_part30_skel k0_part31_skel k0_part32_skel k0_part33_skel
  simp only [semSignalWord, semWaitWord, Prog.lift, Prog.bind_op, Prog.bind_ret, Prog.pure_eq_ret, wp_deviceId]
  unfold bodyPre ghost positions payToks creds gAny
  iintro ⟨⟨⟨⟨#HR, ⟨HatB, HatC, HatS, HatV⟩, HtC, Htoks⟩, ⟨HcB, HcV⟩, #Hlev, Harg, Hxv, ⟨%fg, Hg⟩⟩, Ho, ⟨%d0, %g0, %hg0, Hout⟩⟩, Hk⟩
  unfold Dat.owesAt Pipeline.owesWithin
  icases Ho with ⟨%W, %hW, HO⟩
  rw [show (dats m ρ 0 c).owed t₀.castSucc = O₀ c from rfl]
  unfold O₀
  ihave HO := (show (owes (c : Thread nD τ) (owedCp c offs + owedSig c offs) W : sProp 𝕄) ⊢ owesE c (owedCp c offs + owedSig c offs) from by
    unfold owesE; iintro H; iexists W; iexact H) $$ HO
  -- the gather buffer, row by row
  ihave Hrows := (Entails.of_eq ((rows16 c fullShare fg).trans (congrArg _ (erase16 _)))) $$ Hg
  icases Hrows with ⟨Hr0, Hr1, Hr2, Hr3, Hr4, Hr5, Hr6, Hr7, Hr8, Hr9, Hr10, Hr11, Hr12, Hr13, Hr14, Hr15⟩
  -- the tokens of the duties this device pays, peer by peer
  ihave Ht := (Entails.of_eq (erase16 _)) $$ Htoks
  unfold payTok
  icases Ht with ⟨⟨tB1, tR1, tS1⟩, ⟨tB2, tR2, tS2⟩, ⟨tB3, tR3, tS3⟩, ⟨tB4, tR4, tS4⟩, ⟨tB5, tR5, tS5⟩, ⟨tB6, tR6, tS6⟩, ⟨tB7, tR7, tS7⟩,
    ⟨tB8, tR8, tS8⟩, ⟨tB9, tR9, tS9⟩, ⟨tB10, tR10, tS10⟩, ⟨tB11, tR11, tS11⟩, ⟨tB12, tR12, tS12⟩, ⟨tB13, tR13, tS13⟩, ⟨tB14, tR14, tS14⟩,
    ⟨tB15, tR15, tS15⟩⟩
  -- the fifteen signals
  sig_step 1 [2, 3, 4, 5, 6, 7, 8, 9, 10, 11, 12, 13, 14, 15] (devS1 c) tB1 Hr1
  sig_step 2 [3, 4, 5, 6, 7, 8, 9, 10, 11, 12, 13, 14, 15] (devS2 c) tB2 Hr2
  sig_step 3 [4, 5, 6, 7, 8, 9, 10, 11, 12, 13, 14, 15] (devS3 c) tB3 Hr3
  sig_step 4 [5, 6, 7, 8, 9, 10, 11, 12, 13, 14, 15] (devS4 c) tB4 Hr4
  sig_step 5 [6, 7, 8, 9, 10, 11, 12, 13, 14, 15] (devS5 c) tB5 Hr5
  sig_step 6 [7, 8, 9, 10, 11, 12, 13, 14, 15] (devS6 c) tB6 Hr6
  sig_step 7 [8, 9, 10, 11, 12, 13, 14, 15] (devS7 c) tB7 Hr7
  sig_step 8 [9, 10, 11, 12, 13, 14, 15] (devS8 c) tB8 Hr8
  sig_step 9 [10, 11, 12, 13, 14, 15] (devS9 c) tB9 Hr9
  sig_step 10 [11, 12, 13, 14, 15] (devS10 c) tB10 Hr10
  sig_step 11 [12, 13, 14, 15] (devS11 c) tB11 Hr11
  sig_step 12 [13, 14, 15] (devS12 c) tB12 Hr12
  sig_step 13 [14, 15] (devS13 c) tB13 Hr13
  sig_step 14 [15] (devS14 c) tB14 Hr14
  sig_step 15 [] (devS15 c) tB15 Hr15
  -- the local copy of the argument block, and its wait
  iapply (step_copy m K c) $$ [Harg Hxv HtC]
  · isplitr; · iexact HR
    isplitl [Harg]; · iexact Harg
    isplitl [Hxv]; · iexact Hxv
    iexact HtC
  iintro HcC
  iapply (step_wait_copy m K c offs []) $$ [HcC HO HatC]
  · isplitr; · iexact HR
    isplitr; · iexact Hlev
    isplitl [HcC]; · iexact HcC
    isplitl [HO]; · iexact HO
    iexact HatC
  iintro ⟨HO, HatC, Hpay⟩
  unfold copyPay
  icases Hpay with ⟨Hxv, Harg⟩
  -- the column sums of the block, stored in the own row
  iapply (wp_load 𝒱₀ (c : Thread nD τ) none Set.univ (m := xV) (View.setOn_subset_set _ _)) $$ Hxv; iintro Hxv
  rw [read_xv]
  iapply (step_load_row c (k0_off1_eq c) fullShare fg) $$ Hr0; iintro Hr0
  iapply (step_store_row c (k0_off1_eq c) (k0_pay1 (xin m c)) fg) $$ Hr0; iintro Hr0
  ihave Hr0 := (Entails.of_eq (row_congr (F := F) c c fullShare _ (gathB m c) (row_store_eq m c fg))) $$ Hr0
  -- the barrier wait: every peer's row for this device
  ihave HO := (Entails.of_eq (show owesE (F := F) c (owedCp c offs + owedSig c []) = owesE c (owedCp c offs) from by rw [owedSig_nil, add_zero])) $$ HO
  iapply (step_wait_bar m K c offs) $$ [HcB HO HatB]
  · isplitr; · iexact HR
    isplitr; · iexact Hlev
    isplitl [HcB]; · iexact HcB
    isplitl [HO]; · iexact HO
    iexact HatB
  iintro ⟨HO, HatB, Hpay⟩
  ihave Hp := (Entails.of_eq (erase16 _)) $$ Hpay
  icases Hp with ⟨P1, P2, P3, P4, P5, P6, P7, P8, P9, P10, P11, P12, P13, P14, P15⟩
  -- the own row: its right half kept for the load, its left half dealt to the copies
  ihave Hsp := (share_full (F := F) c c (gathB m c)).1 $$ Hr0
  icases Hsp with ⟨Hrest, Hkeep⟩
  send_step 1 0 [2, 3, 4, 5, 6, 7, 8, 9, 10, 11, 12, 13, 14, 15] (devC1 c) (send_slot c 0) P1 tS1 tR1 cS1
  send_step 2 1 [3, 4, 5, 6, 7, 8, 9, 10, 11, 12, 13, 14, 15] (devC2 c) (send_slot c 1) P2 tS2 tR2 cS2
  send_step 3 2 [4, 5, 6, 7, 8, 9, 10, 11, 12, 13, 14, 15] (devC3 c) (send_slot c 2) P3 tS3 tR3 cS3
  send_step 4 3 [5, 6, 7, 8, 9, 10, 11, 12, 13, 14, 15] (devC4 c) (send_slot c 3) P4 tS4 tR4 cS4
  send_step 5 4 [6, 7, 8, 9, 10, 11, 12, 13, 14, 15] (devC5 c) (send_slot c 4) P5 tS5 tR5 cS5
  send_step 6 5 [7, 8, 9, 10, 11, 12, 13, 14, 15] (devC6 c) (send_slot c 5) P6 tS6 tR6 cS6
  send_step 7 6 [8, 9, 10, 11, 12, 13, 14, 15] (devC7 c) (send_slot c 6) P7 tS7 tR7 cS7
  send_step 8 7 [9, 10, 11, 12, 13, 14, 15] (devC8 c) (send_slot c 7) P8 tS8 tR8 cS8
  send_step 9 8 [10, 11, 12, 13, 14, 15] (devC9 c) (send_slot c 8) P9 tS9 tR9 cS9
  send_step 10 9 [11, 12, 13, 14, 15] (devC10 c) (send_slot c 9) P10 tS10 tR10 cS10
  send_step 11 10 [12, 13, 14, 15] (devC11 c) (send_slot c 10) P11 tS11 tR11 cS11
  send_step 12 11 [13, 14, 15] (devC12 c) (send_slot c 11) P12 tS12 tR12 cS12
  send_step 13 12 [14, 15] (devC13 c) (send_slot c 12) P13 tS13 tR13 cS13
  send_step 14 13 [15] (devC14 c) (send_slot c 13) P14 tS14 tR14 cS14
  send_step 15 14 [] (devC15 c) (send_slot c 14) P15 tS15 tR15 cS15
  -- the receive waits: the peers' rows, landed
  ihave HO := (Entails.of_eq (show owesE (F := F) c (owedCp c []) = owesE c 0 from by rw [owedCp_nil])) $$ HO
  ihave Hcv := (Entails.of_eq (erase16 _)) $$ HcV
  icases Hcv with ⟨cV1, cV2, cV3, cV4, cV5, cV6, cV7, cV8, cV9, cV10, cV11, cV12, cV13, cV14, cV15⟩
  ihave HaV := (Entails.of_eq (univ16 _)) $$ HatV
  icases HaV with ⟨aV0, aV1, aV2, aV3, aV4, aV5, aV6, aV7, aV8, aV9, aV10, aV11, aV12, aV13, aV14, aV15⟩
  recv_step 1 (recv_slot_wait c 0) (row_peer c 0) cV1 aV1 Hg1
  recv_step 2 (recv_slot_wait c 1) (row_peer c 1) cV2 aV2 Hg2
  recv_step 3 (recv_slot_wait c 2) (row_peer c 2) cV3 aV3 Hg3
  recv_step 4 (recv_slot_wait c 3) (row_peer c 3) cV4 aV4 Hg4
  recv_step 5 (recv_slot_wait c 4) (row_peer c 4) cV5 aV5 Hg5
  recv_step 6 (recv_slot_wait c 5) (row_peer c 5) cV6 aV6 Hg6
  recv_step 7 (recv_slot_wait c 6) (row_peer c 6) cV7 aV7 Hg7
  recv_step 8 (recv_slot_wait c 7) (row_peer c 7) cV8 aV8 Hg8
  recv_step 9 (recv_slot_wait c 8) (row_peer c 8) cV9 aV9 Hg9
  recv_step 10 (recv_slot_wait c 9) (row_peer c 9) cV10 aV10 Hg10
  recv_step 11 (recv_slot_wait c 10) (row_peer c 10) cV11 aV11 Hg11
  recv_step 12 (recv_slot_wait c 11) (row_peer c 11) cV12 aV12 Hg12
  recv_step 13 (recv_slot_wait c 12) (row_peer c 12) cV13 aV13 Hg13
  recv_step 14 (recv_slot_wait c 13) (row_peer c 13) cV14 aV14 Hg14
  recv_step 15 (recv_slot_wait c 14) (row_peer c 14) cV15 aV15 Hg15
  -- every landed row: its left half aside, its right half for the load
  half_step 1 Hg1 Hl1 Hh1
  half_step 2 Hg2 Hl2 Hh2
  half_step 3 Hg3 Hl3 Hh3
  half_step 4 Hg4 Hl4 Hh4
  half_step 5 Hg5 Hl5 Hh5
  half_step 6 Hg6 Hl6 Hh6
  half_step 7 Hg7 Hl7 Hh7
  half_step 8 Hg8 Hl8 Hh8
  half_step 9 Hg9 Hl9 Hh9
  half_step 10 Hg10 Hl10 Hh10
  half_step 11 Hg11 Hl11 Hh11
  half_step 12 Hg12 Hl12 Hh12
  half_step 13 Hg13 Hl13 Hh13
  half_step 14 Hg14 Hl14 Hh14
  half_step 15 Hg15 Hl15 Hh15
  -- the sixteen right halves are the whole buffer at that share: the load, the column sums, the store
  ihave Hall := (Entails.of_eq (rows16' (F := F) c keepS (gathB m c)).symm) $$ [Hkeep Hh1 Hh2 Hh3 Hh4 Hh5 Hh6 Hh7 Hh8 Hh9 Hh10 Hh11 Hh12 Hh13 Hh14 Hh15]
  · iframe
  iapply (wp_load 𝒱₀ (c : Thread nD τ) none Set.univ (m := gM) (Finset.subset_univ _)) $$ Hall; iintro Hall
  rw [whole_read]
  iapply (wp_load 𝒱₀ (c : Thread nD τ) none Set.univ (m := oM) (Finset.subset_univ _)) $$ Hout; iintro Hout
  iapply (wp_store 𝒱₀ (c : Thread nD τ) none Set.univ (m := oM) (r := r0o) (Mk := Finset.univ) (Finset.subset_univ _)) $$ Hout; iintro Hout
  rw [write_out]
  -- the send waits: the pieces of the own row's share back
  ihave HaS := (Entails.of_eq (univ16 _)) $$ HatS
  icases HaS with ⟨aS0, aS1, aS2, aS3, aS4, aS5, aS6, aS7, aS8, aS9, aS10, aS11, aS12, aS13, aS14, aS15⟩
  swait_step 1 (send_slot c 0) cS1 aS1 Hp1
  swait_step 2 (send_slot c 1) cS2 aS2 Hp2
  swait_step 3 (send_slot c 2) cS3 aS3 Hp3
  swait_step 4 (send_slot c 3) cS4 aS4 Hp4
  swait_step 5 (send_slot c 4) cS5 aS5 Hp5
  swait_step 6 (send_slot c 5) cS6 aS6 Hp6
  swait_step 7 (send_slot c 6) cS7 aS7 Hp7
  swait_step 8 (send_slot c 7) cS8 aS8 Hp8
  swait_step 9 (send_slot c 8) cS9 aS9 Hp9
  swait_step 10 (send_slot c 9) cS10 aS10 Hp10
  swait_step 11 (send_slot c 10) cS11 aS11 Hp11
  swait_step 12 (send_slot c 11) cS12 aS12 Hp12
  swait_step 13 (send_slot c 12) cS13 aS13 Hp13
  swait_step 14 (send_slot c 13) cS14 aS14 Hp14
  swait_step 15 (send_slot c 14) cS15 aS15 Hp15
  -- the own row's left half joined back, piece by piece
  join_step 14 Hp15
  join_step 13 Hp14
  join_step 12 Hp13
  join_step 11 Hp12
  join_step 10 Hp11
  join_step 9 Hp10
  join_step 8 Hp9
  join_step 7 Hp8
  join_step 6 Hp7
  join_step 5 Hp6
  join_step 4 Hp5
  join_step 3 Hp4
  join_step 2 Hp3
  join_step 1 Hp2
  join_step 0 Hp1
  -- the sixteen left halves are the buffer's left half; with the right half, the buffer whole
  ihave Hleft := (Entails.of_eq (rows16' (F := F) c (restS 0) (gathB m c)).symm) $$ [Hrest Hl1 Hl2 Hl3 Hl4 Hl5 Hl6 Hl7 Hl8 Hl9 Hl10 Hl11 Hl12 Hl13 Hl14 Hl15]
  · iframe
  ihave Hg := (whole_share (F := F) c (gathB m c)).2 $$ [Hleft Hall]
  · isplitl [Hleft] <;> iassumption
  -- every own cell closed at zero
  imod (close_copy m K c) $$ [HatC] with HzC
  · isplitr; · iexact HR
    iexact HatC
  imod (close_sends m K c) $$ [aS0 aS1 aS2 aS3 aS4 aS5 aS6 aS7 aS8 aS9 aS10 aS11 aS12 aS13 aS14 aS15] with HzS
  · isplitr; · iexact HR
    iapply (ends16 (fun (e : Fin 16) (R : ℕ) => (atPos ER (sendCell c (peer c e)) R ∅ 0 : sProp 𝕄)))
    iframe
  imod (close_recvs m K c) $$ [aV0 aV1 aV2 aV3 aV4 aV5 aV6 aV7 aV8 aV9 aV10 aV11 aV12 aV13 aV14 aV15] with HzV
  · isplitr; · iexact HR
    iapply (ends16 (fun (e : Fin 16) (R : ℕ) => (atPos ER (recvCell c (peer c e)) R ∅ 0 : sProp 𝕄)))
    iframe
  rw [wp_ret]; imodintro
  iapply Hk
  unfold bodyPost Φ₁ Dat.owesAt Pipeline.owesWithin owesE gAny
  rw [show (dats m ρ 0 c).owed t₀.succ = 0 from rfl]
  icases HO with ⟨%W', HO⟩
  isplitl [Harg Hxv Hg HzC HzS HzV]
  · isplitl [Harg]; · iapply (arg_back m c); iexact Harg
    isplitl [Hxv]; · iapply (xv_back m c); iexact Hxv
    isplitl [Hg]; · iexists (gathB m c); iexact Hg
    isplitl [HzC]; · iexact HzC
    isplitl [HzS]; · iexact HzS
    iexact HzV
  isplitl [HO]
  · iexists W'
    isplitr; · ipureintro; exact fun _ _ => Or.inl trivial
    iexact HO
  iexists _; isplitr; · (ipureintro; rfl)
  iexact Hout

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
def bodyPre' (c : Dev nD) : sProp 𝕄 :=
  iprop(Φ₀ m c ∗ (dats m ρ 0 c).owesAt () t₀.castSucc
    ∗ (∃ d, stg c cc0_stg0_0 ((dats m ρ 0 c).before (0 : Fin 1) t₀ d)))

set_option maxRecDepth 8000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _) cc0_scratch2 cc0_scratch3 cc0_scratch4)
    (fun _ => bodyPost m ρ c)
  unfold bodyPre' Φ₀ start
  iintro ⟨⟨⟨⟨%K, Hg⟩, Hc, Hlev, Harg⟩, Hxv, Hgb⟩, Ho, Hout⟩
  iapply (sound_body m ρ K c fun _ => bodyPost m ρ c)
  unfold bodyPre
  isplitr []
  · isplitl [Hg Hc Hlev Harg Hxv Hgb]
    · isplitl [Hg]; · iexact Hg
      isplitl [Hc]; · iexact Hc
      isplitl [Hlev]; · iexact Hlev
      isplitl [Harg]; · iexact Harg
      isplitl [Hxv]; · iexact Hxv
      iexact Hgb
    isplitl [Ho]; · iexact Ho
    iexact Hout
  · iintro H; iexact H

/-- info: 'Cert.KernelIdeal.Mean.body_obligation' depends on axioms: [propext, Classical.choice, Quot.sound] -/
#guard_msgs in #print axioms body_obligation

end Cert.KernelIdeal.Mean

end
-- ==== Proof.LaunchGhost.lean ====
/-
  The launch element of the protocol's algebra, and the two ghost-state steps of the launch.

  The element: every one of the 16 × 34 cells at round 0, and one token per duty of the schedule. Its funding deals
  device `c` the round state, the position and the reached-mark of each of its own cells, and the tokens of its own
  cells' duties. The global step allocates every cell's invariant from its counter at zero and its round state, and
  then hands each token to the device that PAYS the duty: barrier duty `e` of device `c'` goes to the device `e`
  places after `c'`, which sees it as the duty `neg e` of the device `neg e` places after itself; the receive duty of
  slot `peer c' e` on `c'` goes to that same device; copy and send duties stay with their owner.
-/
import proofs.«900953_g7700000000000954_dist_mean_ax0_shard0_i_m512_n256_v7x_i16_f32_1_alg».proof.Proof.Proto
import Idealize.ShloMosaic.Lib.Pipeline.Launch
import Idealize.ShloMosaic.Lib.Pipeline.Kit
import Idealize.ShloMosaic.Lib.Tactic
import Mathlib.Data.Fintype.Basic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch element -/

/-- All 16 × 34 cells. -/
def ringCells : Finset (GSem nD τ sig) := Finset.univ.map ⟨kcell, kcell_injective⟩

/-- The duties of one device's own cells: the copy's, and for each offset `e ≠ 0` the barrier duty `e`, the send duty and
    the receive duty of the slot `e` places on. -/
abbrev DutyIx : Type := Unit ⊕ ({e : Fin 16 // e ≠ 0} × Fin 3)

def dutyOf (ci : Dev nD × DutyIx) : GSem nD τ sig × ℕ × Fin 16 :=
  match ci.2 with
  | .inl _ => (copyCell ci.1, 0, 0)
  | .inr (e, k) => match k with
    | 0 => (barCell ci.1, 0, e.1)
    | 1 => (sendCell ci.1 (peer ci.1 e.1), 0, 0)
    | 2 => (recvCell ci.1 (peer ci.1 e.1), 0, 0)

theorem dutyOf_injective : Function.Injective (dutyOf : Dev nD × DutyIx → GSem nD τ sig × ℕ × Fin 16) := by
  rintro ⟨c, i⟩ ⟨c', i'⟩ h
  have h1 : c = c' := by
    have := congrArg (fun x : GSem nD τ sig × ℕ × Fin 16 => x.1.1.1) h
    rcases i with (_ | ⟨e, k⟩) <;> rcases i' with (_ | ⟨e', k'⟩)
    · exact this
    · fin_cases k' <;> exact this
    · fin_cases k <;> exact this
    · fin_cases k <;> fin_cases k' <;> exact this
  subst h1
  have hs := congrArg (fun x : GSem nD τ sig × ℕ × Fin 16 => x.1.2) h
  have hd := congrArg (fun x : GSem nD τ sig × ℕ × Fin 16 => x.2.2) h
  rcases i with (⟨⟩ | ⟨e, k⟩) <;> rcases i' with (⟨⟩ | ⟨e', k'⟩)
  · rfl
  · exfalso; fin_cases k'
    · exact absurd hs (fun h' => by cases h')
    · exact copySem_ne_sendSem _ (SemLoc.dma.inj hs)
    · exact copySem_ne_recvSem _ (SemLoc.dma.inj hs)
  · exfalso; fin_cases k
    · exact absurd hs (fun h' => by cases h')
    · exact copySem_ne_sendSem _ (SemLoc.dma.inj hs).symm
    · exact copySem_ne_recvSem _ (SemLoc.dma.inj hs).symm
  · fin_cases k <;> fin_cases k'
    · have he : e = e' := Subtype.ext hd
      subst he; rfl
    · exact absurd hs (fun h' => by cases h')
    · exact absurd hs (fun h' => by cases h')
    · exact absurd hs (fun h' => by cases h')
    · have he : e = e' := Subtype.ext (peer_inj c (sendSem_inj (SemLoc.dma.inj hs)))
      subst he; rfl
    · exact absurd (SemLoc.dma.inj hs) (sendSem_ne_recvSem _ _)
    · exact absurd hs (fun h' => by cases h')
    · exact absurd (SemLoc.dma.inj hs).symm (sendSem_ne_recvSem _ _)
    · have he : e = e' := Subtype.ext (peer_inj c (recvSem_inj (SemLoc.dma.inj hs)))
      subst he; rfl

/-- One token per duty of the schedule. -/
def ringToks : Finset (GSem nD τ sig × ℕ × Fin 16) := Finset.univ.map ⟨dutyOf, dutyOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (copyCell c) 0 0 ∗ bigSep (Finset.univ.erase (0 : Fin 16)) fun e =>
    iprop(dutyTok ER (barCell c) 0 e ∗ dutyTok ER (sendCell c (peer c e)) 0 0 ∗ dutyTok ER (recvCell c (peer c e)) 0 0))

/-- What the launch element deals device `c`. -/
def G (c : Dev nD) : sProp 𝕄 :=
  iprop((bigSep Finset.univ fun k : Fin 34 => roundState ER (meanRd m) (kcell (c, k)) 0)
    ∗ (bigSep Finset.univ fun k : Fin 34 => iprop(atPos ER (kcell (c, k)) 0 ∅ 0 ∗ reached ER (kcell (c, k)) 0)) ∗ toks c)

theorem bigSep_fin3 (Φ : Fin 3 → sProp 𝕄) : bigSep Finset.univ Φ = iprop(Φ 0 ∗ Φ 1 ∗ Φ 2) := bigSep_univ_eq_bigSepL [0, 1, 2] (by decide) (by decide) Φ

theorem toks_eq (c : Dev nD) :
    (bigSep Finset.univ fun i : DutyIx => (dutyTok ER (dutyOf (c, i)).1 (dutyOf (c, i)).2.1 (dutyOf (c, i)).2.2 : sProp 𝕄)) = toks c := by
  have hB : (bigSep Finset.univ fun e : {e : Fin 16 // e ≠ 0} => bigSep Finset.univ fun k : Fin 3 =>
        (dutyTok ER (dutyOf (c, Sum.inr (e, k))).1 (dutyOf (c, Sum.inr (e, k))).2.1 (dutyOf (c, Sum.inr (e, k))).2.2 : sProp 𝕄))
      = bigSep (Finset.univ.erase (0 : Fin 16)) fun e =>
          iprop(dutyTok ER (barCell c) 0 e ∗ dutyTok ER (sendCell c (peer c e)) 0 0 ∗ dutyTok ER (recvCell c (peer c e)) 0 0) :=
    (bigSep_congr fun e _ => bigSep_fin3 _).trans
      (bigSep_subtype_ne (0 : Fin 16) fun e => iprop(dutyTok ER (barCell c) 0 e ∗ dutyTok ER (sendCell c (peer c e)) 0 0 ∗ dutyTok ER (recvCell c (peer c e)) 0 0))
  unfold toks
  rw [bigSep_univ_sum, bigSep_univ_of_subsingleton (), bigSep_univ_prod, hB]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 34 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (meanRd m) ringCells ringToks) $$ HX with ⟨Hst, Hr, Hat, Htok⟩
  imodintro
  ihave Hst' := (Entails.of_eq (hX fun g => roundState ER (meanRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The first ghost-state premise of the launch: the element splits into the pipeline's and the protocol's halves, and
    the protocol's is funded. -/
theorem hu0 : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## The counters at zero, as one family over a device's 34 cells -/

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert,
    bigSep_insert (fun h => by obtain ⟨k, -, hk⟩ := Finset.mem_map.mp h; exact Fin.succ_ne_zero k hk), bigSep_map]
  rfl

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 34 => semVal (kcell (c, k)) 0 : sProp 𝕄) := by
  rw [unscopedSems0_eq, bigSep_fin_succ (n := 33) (fun k : Fin 34 => (semVal (kcell (c, k)) 0 : sProp 𝕄))]
  unfold Pipeline.ownSems0
  iintro ⟨HS, HB⟩
  isplitl [HB]; · iexact HB
  iexact HS

/-- Every cell of device `c` gets its invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 34 => iprop(∃ κ : ℕ, cellInv ER (meanRd m) κ (kcell (c, k))))
          ∗ (bigSep Finset.univ fun k : Fin 34 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 34 => semVal (kcell (c, k)) 0) ∗ bigSep Finset.univ fun k : Fin 34 => roundState ER (meanRd m) (kcell (c, k)) 0)
      ⊢ (|={Set.univ}=> bigSep Finset.univ fun k : Fin 34 => iprop(∃ κ : ℕ, cellInv ER (meanRd m) κ (kcell (c, k))) : sProp 𝕄) from by
        rw [← bigSep_sep']
        exact (bigSep_mono fun k _ => (Rounds.body_intro ER (meanRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## A device's positions, by the offset of the slot's device -/

theorem sendIx_injective : Function.Injective sendIx := by decide
theorem recvIx_injective : Function.Injective recvIx := by decide

theorem univ34 : (Finset.univ : Finset (Fin 34))
    = insert 0 (insert 1 (Finset.univ.map ⟨sendIx, sendIx_injective⟩ ∪ Finset.univ.map ⟨recvIx, recvIx_injective⟩)) := by decide

theorem bigSep_fin34 (Φ : Fin 34 → sProp 𝕄) :
    bigSep Finset.univ Φ = iprop(Φ 0 ∗ Φ 1 ∗ (bigSep Finset.univ fun j : Dev nD => Φ (sendIx j)) ∗ bigSep Finset.univ fun j : Dev nD => Φ (recvIx j)) := by
  rw [univ34, bigSep_insert (by decide), bigSep_insert (by decide), bigSep_union (by decide), bigSep_map, bigSep_map]
  rfl

/-- Offsets and devices, seen from `c`. -/
def peerE (c : Dev nD) : Fin 16 ≃ Dev nD := ⟨peer c, dist c, dist_peer c, peer_dist c⟩

theorem positions_intro (c : Dev nD) : (bigSep Finset.univ fun k : Fin 34 => (atPos ER (kcell (c, k)) 0 ∅ 0 : sProp 𝕄)) ⊢ positions c := by
  have hs : (bigSep Finset.univ fun j : Dev nD => (atPos ER (kcell (c, sendIx j)) 0 ∅ 0 : sProp 𝕄))
      = bigSep Finset.univ fun e : Fin 16 => atPos ER (sendCell c (peer c e)) 0 ∅ 0 :=
    (bigSep_univ_equiv (peerE c) _).trans (bigSep_congr fun e _ => by rw [kcell_send]; rfl)
  have hr : (bigSep Finset.univ fun j : Dev nD => (atPos ER (kcell (c, recvIx j)) 0 ∅ 0 : sProp 𝕄))
      = bigSep Finset.univ fun e : Fin 16 => atPos ER (recvCell c (peer c e)) 0 ∅ 0 :=
    (bigSep_univ_equiv (peerE c) _).trans (bigSep_congr fun e _ => by rw [kcell_recv]; rfl)
  rw [bigSep_fin34, hs, hr, kcell_copy]
  unfold positions
  exact Entails.of_eq rfl

/-! ## The tokens dealt to their payers -/

/-- A duty named by (owner, offset of the payer) is the duty named by (payer, offset of the owner). -/
def dealE : Dev nD × Fin 16 ≃ Dev nD × Fin 16 where
  toFun p := (peer p.1 p.2, neg p.2)
  invFun p := (peer p.1 p.2, neg p.2)
  left_inv p := Prod.ext (peer_peer_neg p.1 p.2) (neg_neg p.2)
  right_inv p := Prod.ext (peer_peer_neg p.1 p.2) (neg_neg p.2)

theorem neg_ne_zero_iff (d : Fin 16) : neg d ≠ 0 ↔ d ≠ 0 := by revert d; decide

theorem erase_as_ite (Φ : Fin 16 → sProp 𝕄) :
    bigSep (Finset.univ.erase (0 : Fin 16)) Φ = bigSep Finset.univ fun d : Fin 16 => if d ≠ 0 then Φ d else iprop(emp) := by
  rw [← Finset.filter_ne' Finset.univ (0 : Fin 16), bigSep_filter]
  rfl

theorem deal (Ψ : Dev nD → Fin 16 → sProp 𝕄) :
    (bigSep Finset.univ fun c : Dev nD => bigSep (Finset.univ.erase (0 : Fin 16)) fun d => Ψ c d)
      = bigSep Finset.univ fun c : Dev nD => bigSep (Finset.univ.erase (0 : Fin 16)) fun d => Ψ (peer c d) (neg d) := by
  have e1 : ∀ Θ : Dev nD → Fin 16 → sProp 𝕄,
      (bigSep Finset.univ fun c : Dev nD => bigSep (Finset.univ.erase (0 : Fin 16)) fun d => Θ c d)
        = bigSep Finset.univ fun p : Dev nD × Fin 16 => if p.2 ≠ 0 then Θ p.1 p.2 else iprop(emp) := fun Θ =>
    (bigSep_congr fun c _ => erase_as_ite (fun d => Θ c d)).trans
      (bigSep_univ_prod (fun p : Dev nD × Fin 16 => if p.2 ≠ 0 then Θ p.1 p.2 else iprop(emp))).symm
  refine (e1 Ψ).trans (Eq.trans ?_ (e1 fun c d => Ψ (peer c d) (neg d)).symm)
  refine (bigSep_univ_equiv dealE _).trans (bigSep_congr fun p _ => ?_)
  show (if neg p.2 ≠ 0 then Ψ (peer p.1 p.2) (neg p.2) else iprop(emp)) = if p.2 ≠ 0 then Ψ (peer p.1 p.2) (neg p.2) else iprop(emp)
  by_cases h : p.2 = 0
  · rw [if_neg (not_not.mpr h), if_neg (fun h' => (neg_ne_zero_iff _).mp h' h)]
  · rw [if_pos h, if_pos ((neg_ne_zero_iff _).mpr h)]

/-- Each barrier token to the device that signals it, each receive token to the device whose copy lands there; the copy
    and send tokens stay. -/
theorem toks_around : (bigSep Finset.univ fun c : Dev nD => (toks c : sProp 𝕄)) ⊢ bigSep Finset.univ fun c : Dev nD => payToks c := by
  have hbar := deal (F := F) fun c e => dutyTok ER (barCell c) 0 e
  have hrecv : (bigSep Finset.univ fun c : Dev nD => bigSep (Finset.univ.erase (0 : Fin 16)) fun e => (dutyTok ER (recvCell c (peer c e)) 0 0 : sProp 𝕄))
      = bigSep Finset.univ fun c : Dev nD => bigSep (Finset.univ.erase (0 : Fin 16)) fun d => dutyTok ER (recvCell (peer c d) c) 0 0 :=
    (deal (F := F) fun c e => dutyTok ER (recvCell c (peer c e)) 0 0).trans
      (bigSep_congr fun c _ => bigSep_congr fun d _ => by rw [peer_peer_neg])
  unfold toks payToks payTok
  simp only [bigSep_sep']
  iintro ⟨H1, H2, H3, H4⟩
  isplitl [H1]; · iexact H1
  isplitl [H2]; · iapply (Entails.of_eq hbar); iexact H2
  isplitl [H4]; · iapply (Entails.of_eq hrecv); iexact H4
  iexact H3

/-! ## The global step -/

theorem ghost_intro (K : Dev nD × Fin 34 → ℕ) (c : Dev nD) :
    iprop(records m K ∗ (bigSep Finset.univ fun k : Fin 34 => (atPos ER (kcell (c, k)) 0 ∅ 0 : sProp 𝕄)) ∗ payToks c) ⊢ iprop(∃ K, ghost m K c) := by
  unfold ghost
  iintro ⟨HR, Hat, Htk⟩
  iexists K
  isplitl [HR]; · iexact HR
  isplitl [Hat]; · iapply (positions_intro (F := F) c); iexact Hat
  iexact Htk

theorem bigSep_under_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 34 => iprop(∃ κ : ℕ, cellInv ER (meanRd m) κ (kcell (c, k))))
          ∗ (bigSep Finset.univ fun k : Fin 34 => iprop(atPos ER (kcell (c, k)) 0 ∅ 0 ∗ reached ER (kcell (c, k)) 0)) ∗ toks c) : sProp 𝕄)
      ⊢ bigSep Finset.univ (fun c => iprop(∃ K, ghost m K c)) := by
  rw [bigSep_sep', bigSep_sep', ← bigSep_univ_prod (fun ck : Dev nD × Fin 34 => iprop(∃ κ : ℕ, cellInv ER (meanRd m) κ (kcell ck))),
    bigSep_congr (s := Finset.univ) (fun (c : Dev nD) _ => bigSep_sep' Finset.univ (fun k : Fin 34 => (atPos ER (kcell (c, k)) 0 ∅ 0 : sProp 𝕄)) (fun k => reached ER (kcell (c, k)) 0)),
    bigSep_sep', ← bigSep_univ_prod (fun ck : Dev nD × Fin 34 => (reached ER (kcell ck) 0 : sProp 𝕄))]
  iintro ⟨HI, ⟨Hat, #HR⟩, Htok⟩
  ihave HK := (BI.bigSep_exists_pi Finset.univ (fun (ck : Dev nD × Fin 34) (κ : ℕ) => (cellInv ER (meanRd m) κ (kcell ck) : sProp 𝕄))) $$ HI
  icases HK with ⟨%K, #HI⟩
  ihave Htk := (toks_around (F := F)) $$ Htok
  iapply (bigSep_under_persistent (R := records m K) fun c _ => ghost_intro m K c)
  isplitr
  · unfold records; isplitl; · iexact HI
    iexact HR
  · iapply (Entails.of_eq (bigSep_sep' Finset.univ (fun c : Dev nD => bigSep Finset.univ fun k : Fin 34 => (atPos ER (kcell (c, k)) 0 ∅ 0 : sProp 𝕄)) payToks).symm)
    isplitl [Hat]; · iexact Hat
    iexact Htk

/-- The second ghost-state premise of the launch: from every device's counters at zero and its share of the launch
    element, what every device's body starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (fun c => iprop(∃ K, ghost m K c)) :=
  ((bigSep_mono fun c _ => core_alloc m c).trans (bigSep_fupd _ _)).trans (BI.fupd_mono (regroup m))

/-- info: 'Cert.KernelIdeal.Mean.glob' depends on axioms: [propext, Classical.choice, Quot.sound] -/
#guard_msgs in #print axioms glob

/-- info: 'Cert.KernelIdeal.Mean.hu0' depends on axioms: [propext, Classical.choice, Quot.sound] -/
#guard_msgs in #print axioms hu0

end Cert.KernelIdeal.Mean

end
-- ==== Proof.Launch.lean ====
/-
  The launch: from every device's body obligation to the run of @main on the sixteen devices.

  The launch theorem deals every device the credit of what the others owe its cells, hands the unscoped
  argument block and the scoped scratch buffers to the body's invariant, and takes them back at the end with the
  kernel's own thirty-three semaphores at zero. What is read off the final state: the result array holds the
  staged result, the argument block what it held.
-/
import proofs.«900953_g7700000000000954_dist_mean_ax0_shard0_i_m512_n256_v7x_i16_f32_1_alg».proof.Proof.Proto
import proofs.«900953_g7700000000000954_dist_mean_ax0_shard0_i_m512_n256_v7x_i16_f32_1_alg».proof.Proof.Gen.KernelIdeal.Points
import Idealize.ShloMosaic.Lib.Pipeline.Launch
import Idealize.ShloMosaic.Lib.Pipeline.Kit
import Idealize.ShloMosaic.Lib.Pipeline.Cells
import Idealize.ShloMosaic.Lib.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

theorem ownSemFacts : Pipeline.OwnSemFacts cfg0.spec osem := by decide

theorem share_eq (c : Dev nD) (w : Fin cfg0.W) : (dats m ρ 0 c).share w = fullShare := by unfold Dat.share; split <;> rfl

/-! ## The launch credit

Device `d` owes, for every offset `e ≠ 0`, one unit to the barrier cell of the device `e` places after it and one
row's credit to that device's receive cell for `d`. Read at device `c`: its barrier cell is owed one unit by each of
the fifteen devices `e` places before it, its receive cell for `j ≠ c` one row's credit by device `j`. -/

/-- The nonzero offsets. -/
abbrev nz : Finset (Fin 16) := Finset.univ.erase 0

theorem offs_toFinset : offs.toFinset = nz := by decide
theorem offs_nodup : offs.Nodup := by decide
theorem nz_card : nz.card = 15 := by decide

theorem owedSig_eq (c : Dev nD) : owedSig c offs = ∑ e ∈ nz, (tallyAt (barCell (peer c e)) () 1 : CellTallies nD τ sig Unit) := by
  unfold owedSig; rw [← offs_toFinset, List.sum_toFinset _ offs_nodup]
theorem owedCp_eq (c : Dev nD) : owedCp c offs = ∑ e ∈ nz, (tallyAt (recvCell (peer c e) c) () N : CellTallies nD τ sig Unit) := by
  unfold owedCp; rw [← offs_toFinset, List.sum_toFinset _ offs_nodup]

theorem O₀_eq : (O₀ : Dev nD → CellTallies nD τ sig Unit)
    = fun d => (∑ e ∈ nz, (tallyAt (recvCell (peer d e) d) () N : CellTallies nD τ sig Unit)) + ∑ e ∈ nz, (tallyAt (barCell (peer d e)) () 1 : CellTallies nD τ sig Unit) :=
  funext fun d => by unfold O₀; rw [owedCp_eq, owedSig_eq]

theorem nsmul_tallyAt (g : GSem nD τ sig) (k : ℕ) : ∀ n : ℕ, n • (tallyAt g () k : CellTallies nD τ sig Unit) = tallyAt g () (n * k)
  | 0 => by rw [zero_nsmul, Nat.zero_mul, tallyAt_zero]
  | n + 1 => by rw [succ_nsmul, nsmul_tallyAt g k n, tallyAt_add, Nat.succ_mul]

/-- Every device `d` owing one tally on semaphore `sm d` of device `f d`, `f` a bijection of the devices, the launch
    deals device `c` the matching credit token on its semaphore `sm (f⁻¹ c)`. -/
theorem launchCred_at (sm : Dev nD → SemLoc sig) (f finv : Dev nD → Dev nD) (h1 : ∀ c, f (finv c) = c) (h2 : ∀ d, finv (f d) = d)
    (n : ℕ) (c : Dev nD) :
    (Pipeline.launchCred (fun d => tallyAt (((f d : Dev nD) : Thread nD τ), sm d) () n) c : sProp 𝕄)
      ⊢ cred (tallyAt ((c : Thread nD τ), sm (finv c)) () n) := by
  refine (Pipeline.launchCred_elim _ c (sm (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d : Dev nD) : Thread nD τ), sm d) (Finsupp.single () n) ((c : Thread nD τ), sm (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

/-- The fifteen units on the barrier cell, joined. -/
theorem launch_bar (c : Dev nD) :
    (bigSep nz fun e => Pipeline.launchCred (fun d => (tallyAt (barCell (peer d e)) () 1 : CellTallies nD τ sig Unit)) c : sProp 𝕄)
      ⊢ cred (tallyAt (barCell c) () 15) := by
  refine (bigSep_mono fun e _ => Pipeline.launchCred_tallyAt (SemLoc.reg barS) (fun d => peer d e) (fun d => back d e)
    (fun d => peer_back d e) (fun d => back_peer d e) () 1 c).trans ?_
  rw [← Pipeline.cred_finsetSum, Finset.sum_const, nz_card, nsmul_tallyAt]
  exact BI.Entails.refl _

/-- Negation permutes the nonzero offsets. -/
def negEmb : Fin 16 ↪ Fin 16 := ⟨neg, fun a b h => by rw [← neg_neg a, h, neg_neg]⟩
theorem nz_map_neg : nz.map negEmb = nz := by decide

/-- One row's credit on each receive cell, indexed by the offset of the device that pays it. -/
theorem launch_recv (c : Dev nD) :
    (bigSep nz fun e => Pipeline.launchCred (fun d => (tallyAt (recvCell (peer d e) d) () N : CellTallies nD τ sig Unit)) c : sProp 𝕄)
      ⊢ bigSep nz fun e => cred (tallyAt (recvCell c (peer c e)) () N) := by
  have hre : (bigSep nz fun e => (cred (tallyAt (recvCell c (back c e)) () N) : sProp 𝕄))
      = bigSep nz fun e => cred (tallyAt (recvCell c (peer c e)) () N) := by
    conv_rhs => rw [← nz_map_neg, bigSep_map]
    exact bigSep_congr fun e _ => by rw [back_eq_peer_neg]; rfl
  exact (bigSep_mono fun e _ => launchCred_at (fun d => SemLoc.dma (recvSem d)) (fun d => peer d e) (fun d => back d e)
    (fun d => peer_back d e) (fun d => back_peer d e) N c).trans (Entails.of_eq hre)

theorem creds_intro (c : Dev nD) : (Pipeline.launchCred O₀ c : sProp 𝕄) ⊢ creds c := by
  rw [O₀_eq, Pipeline.launchCred_add, Pipeline.launchCred_sum, Pipeline.launchCred_sum]
  unfold creds
  iintro ⟨Hcp, Hsig⟩
  isplitl [Hsig]
  · iapply (launch_bar (F := F) c); iexact Hsig
  · iapply (launch_recv (F := F) c); iexact Hcp

/-! ## The kernel's own semaphores, listed by what they are for -/

/-- The slot of the send and of the receive semaphore for device `j` among the kernel's own thirty-three. -/
def sendK (j : Dev nD) : Fin 33 := ⟨1 + j.val, by have h : j.val < 16 := j.isLt; omega⟩
def recvK (j : Dev nD) : Fin 33 := ⟨17 + j.val, by have h : j.val < 16 := j.isLt; omega⟩
theorem sendK_inj : Function.Injective sendK := by decide
theorem recvK_inj : Function.Injective recvK := by decide
theorem osem_copy : osem 0 = .dma copySem := by decide
theorem osem_send : ∀ j : Dev nD, osem (sendK j) = .dma (sendSem j) := by decide
theorem osem_recv : ∀ j : Dev nD, osem (recvK j) = .dma (recvSem j) := by decide
theorem univ33 : (Finset.univ : Finset (Fin 33))
    = insert 0 (Finset.univ.map ⟨sendK, sendK_inj⟩ ∪ Finset.univ.map ⟨recvK, recvK_inj⟩) := by decide
theorem zero_notMem33 : (0 : Fin 33) ∉ Finset.univ.map ⟨sendK, sendK_inj⟩ ∪ Finset.univ.map ⟨recvK, recvK_inj⟩ := by decide
theorem disj33 : Disjoint (Finset.univ.map ⟨sendK, sendK_inj⟩) (Finset.univ.map ⟨recvK, recvK_inj⟩) := by decide

/-- The ring seen from `c`: offsets against devices. -/
def ringAt (c : Dev nD) : Fin 16 ≃ Dev nD := ⟨peer c, dist c, dist_peer c, peer_dist c⟩

/-- The kernel's own cells at zero: the copy cell, the send cells and the receive cells by offset. -/
theorem ownSems0_eq (c : Dev nD) :
    (Pipeline.ownSems0 (Ix := Unit) (Name := ℕ) (U := UU) (Lvl := ℕ) (Val := Elt F) (τ := τ) osem c : sProp 𝕄)
      = iprop(semVal (copyCell c) 0
          ∗ (bigSep Finset.univ fun e : Fin 16 => semVal (sendCell c (peer c e)) 0)
          ∗ (bigSep Finset.univ fun e : Fin 16 => semVal (recvCell c (peer c e)) 0)) := by
  unfold Pipeline.ownSems0
  rw [univ33, bigSep_insert zero_notMem33, bigSep_union disj33, bigSep_map, bigSep_map]
  simp only [Function.Embedding.coeFn_mk, osem_copy, osem_send, osem_recv]
  rw [bigSep_univ_equiv (ringAt c) (fun j : Dev nD => (semVal (sendCell c j) 0 : sProp 𝕄)),
    bigSep_univ_equiv (ringAt c) (fun j : Dev nD => (semVal (recvCell c j) 0 : sProp 𝕄))]
  rfl

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  rw [Pipeline.unscopedRestP_none, unscopedRest0_eq]
  iintro ⟨Harg, Hlev, Hcr, -, HG⟩
  ihave Hc := (creds_intro (F := F) c) $$ Hcr
  imodintro
  unfold start argPts xinH xin
  isplitl
  · isplitl [HG]; · iexact HG
    isplitl [Hc]; · iexact Hc
    isplitl [Hlev]; · iexact Hlev
    iexact Harg
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ xvAny gAny
  iintro ⟨Hs, -, ⟨Hx, Hg⟩⟩
  isplitl [Hs]; · iexact Hs
  isplitl [Hx]; · iexact Hx
  iexact Hg

theorem phi1_exit (c : Dev nD) :
    (dats m ρ 0 c).Φ (Fin.last cfg0.N) ⊢ iprop(argPts m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ xvAny gAny
  iintro ⟨Ha, Hx, Hg, Hc, Hs, Hr⟩
  isplitl [Ha]; · iexact Ha
  isplitl [Hc Hs Hr]
  · isplitl [Hc]; · iexact Hc
    isplitl [Hs]; · iexact Hs
    iexact Hr
  isplitl [Hx]; · iexact Hx
  iexact Hg

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w; fin_cases s; rfl) offs offs
    · show _ ⊢ MayWait (c : Thread nD τ) _ () 0
      rw [MayWait_zero]; iintro -; iempintro

/-! ## The final arrays -/

/-- The result array after the one write-back holds the staged result. -/
theorem final_out (c : Dev nD) : (dats m ρ 0 c).arrAt (0 : Fin 1) cfg0.N = outB m c := by
  show (dats m ρ 0 c).arrAt (0 : Fin 1) ((t₀ : Fin cfg0.N).val + 1) = outB m c
  rw [Dat.arrAt_succ, if_pos (flush0_0 t₀)]
  exact Memref.write_access_unit_zero_univ (Elt F) main_v1 (funext fun a => Nat.zero_mul _) _ _ (outB m c)

/-! ## The run -/

set_option maxRecDepth 8000 in
/-- At the compiled mesh of sixteen devices, for any float values, from any memory with zero counters: given every
    device's body obligation and the ghost state's allocation, every weakly fair execution of @main terminates, and
    every final state has each device's result array at the column sums of the gathered rows and its argument block
    unchanged. -/
theorem run_values
    (hbody : ∀ c : Dev nD, BodyObligation (dats (F := F) m ρ 0 c) (defs₀ (F := F)) 𝒱₀ () Set.univ)
    (G : Dev nD → sProp 𝕄) (u₀ : UU)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ (fun c => iprop(∃ K, ghost m K c))) :
    θ_run defs (onTc (τ := τ) (main (F := F))) ⟨m, fun _ => 0, ρ⟩ (fun r => ∀ c : Dev nD,
      r.2.mem ((c.tc : Thread nD τ).loc main_v1) = outB m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := fun c => iprop(∃ K, ghost m K c)) (u₀ := u₀)
    (hu₀ := hu₀) (hglob := hglob)
    (hA := fun _ _ => rfl) (hpf := fun _ k => k.elim0)
    (X := start m) (Y := argPts m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold argPts xinH xin
      iintro ⟨Hx, -, HSI⟩
      icombine HSI Hx gives %hx
      imodintro
      isplitr; · ipureintro; exact Buf.eq_of_forall_mem_univ hx
      iexact HSI)
    (hQ := fun s h c => ⟨((h c).1 0).trans (final_out m ρ c), (h c).2.2⟩)

/-- info: 'Cert.KernelIdeal.Mean.run_values' depends on axioms: [propext, Classical.choice, Quot.sound] -/
#guard_msgs in #print axioms run_values

end Cert.KernelIdeal.Mean

end
-- ==== Proof.Value.lean ====
/-
  The value equation of the distributed column mean. Sixteen blocks of 512 rows each are summed down their
  columns, each block's column sums scaled by 2^-13, and the sixteen scaled rows summed; the whole array's
  column sums divided by 8192 are the same reals, because multiplication distributes over a finite sum of
  reals, 8192 = 16 * 512 rows split as (block, row in block), and x / 8192 = x * 2^-13.
-/
import proofs.«900953_g7700000000000954_dist_mean_ax0_shard0_i_m512_n256_v7x_i16_f32_1_alg».proof.Defs
import proofs.«900953_g7700000000000954_dist_mean_ax0_shard0_i_m512_n256_v7x_i16_f32_1_alg».proof.Proof.Spec
import proofs.«900953_g7700000000000954_dist_mean_ax0_shard0_i_m512_n256_v7x_i16_f32_1_alg».proof.Proof.Gen.ReferenceIdeal.Read
import proofs.«900953_g7700000000000954_dist_mean_ax0_shard0_i_m512_n256_v7x_i16_f32_1_alg».proof.Proof.Gen.Pre_finite_inputs_Kernel
import proofs.«900953_g7700000000000954_dist_mean_ax0_shard0_i_m512_n256_v7x_i16_f32_1_alg».proof.Proof.Gen.KernelIdeal
import Idealize.ShloMosaic.Lib.Layout
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

noncomputable section

namespace Cert.MeanValue

open Idealize.ShloMosaic Idealize.ShloMosaic.ValueIdx Idealize.ShloMosaic.TcCoe Idealize.SL.Sem
open scoped BigOperators

/-! ## The three constants -/

/-- The scale the kernel spells is 2^-13 = 1/8192. -/
theorem ofBits_scale : Ideal.ofBits .f32 0x39000000#32 = (((1 / 8192 : ℝ)) : EReal) := by
  simp [Ideal.ofBits, Ideal.ieee, -EReal.coe_mul]; norm_num

/-- The divisor the reference spells is 8192. -/
theorem ofBits_count : Ideal.ofBits .f32 0x46000000#32 = ((8192 : ℝ) : EReal) := by
  simp [Ideal.ofBits, Ideal.ieee, -EReal.coe_mul]; norm_num

open Cert.KernelIdeal Cert.KernelIdeal.Gen Cert.KernelIdeal.Mean

/-! ## The kernel's two payloads at an index -/

/-- A block's scaled column sum: column `q` of the first payload is the sum of the block's column `q` times the scale. -/
theorem pay1_apply (v : FVec Ideal S512x256 .f32) (q : Fin 256) :
    k0_pay1 (F := Ideal) v (ix2 (0 : Fin 1) q)
      = (∑ r : Fin 512, v (ix2 r q)) * Ideal.ofBits .f32 0x39000000#32 := by
  unfold k0_pay1
  rw [shapeCast_self, mulf_apply, broadcast_apply, shapeCast_a_1a_apply]
  refine congrArg (· * _) ?_
  refine (Ideal.multiReduction_add_single _ _ _ _ _ (ix1 q)).trans ?_
  refine Finset.sum_congr rfl fun r _ => congrArg v ?_
  funext a; match a with | ⟨0, _⟩ => rfl | ⟨1, _⟩ => rfl

/-- The gathered rows' column sum: column `q` of the second payload is the sum of the sixteen rows' column `q`. -/
theorem pay2_apply (g : FVec Ideal S16x256 .f32) (q : Fin 256) :
    k0_pay2 (F := Ideal) g (ix2 (0 : Fin 1) q) = ∑ s : Fin 16, g (ix2 s q) := by
  unfold k0_pay2
  rw [shapeCast_a_1a_apply]
  refine (Ideal.multiReduction_add_single _ _ _ _ _ (ix1 q)).trans ?_
  refine Finset.sum_congr rfl fun r _ => congrArg g ?_
  funext a; match a with | ⟨0, _⟩ => rfl | ⟨1, _⟩ => rfl

/-! ## Finiteness: the precondition says every entry of every block is a real -/

instance : Subsingleton Cert.Pre_finite_inputs_Kernel.S_.Idx := ⟨fun a b => funext fun d => d.elim0⟩

/-- The pattern the precondition compares against denotes +∞. -/
theorem ofBits_inf : Ideal.ofBits .f32 0x7F800000#32 = ⊤ := by
  simp [Ideal.ofBits, Ideal.ieee]

/-- If `|x| < +∞` holds at every entry, every entry is a real. -/
theorem real_of_pre (x : FVec Ideal Cert.Pre_finite_inputs_Kernel.S512x256 .f32)
    (h : Cert.Pre_finite_inputs_Kernel.fn (F := Ideal) x = fun _ => 1#1) (i : Cert.Pre_finite_inputs_Kernel.S512x256.Idx) :
    ∃ y : ℝ, x i = (y : EReal) := by
  have h0 := congrFun h ValueIdx.ix0
  dsimp only [Cert.Pre_finite_inputs_Kernel.fn] at h0
  have h1 := Host.reduce_andi_all _ _ _ _ _ h0 i
  have h2 : Ideal.cmp .olt (max (x i) (-(x i))) (Ideal.ofBits .f32 0x7F800000#32) = 1#1 := h1
  rw [ofBits_inf] at h2
  generalize x i = y at h2 ⊢
  induction y using EReal.rec with
  | bot => simp [Ideal.cmp] at h2
  | top => simp [Ideal.cmp] at h2
  | coe r => exact ⟨r, rfl⟩

/-! ## Sums -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 8192 rows is the double sum over (block, row in block), row `512 * s + r`. -/
theorem sum_rows {M : Type} [AddCommMonoid M] (f : Fin 8192 → M) :
    ∑ k : Fin 8192, f k = ∑ s : Fin 16, ∑ r : Fin 512, f ⟨s.val * 512 + r.val, by omega⟩ := by
  rw [← Equiv.sum_comp (finProdFinEquiv : Fin 16 × Fin 512 ≃ Fin 8192) f, Fintype.sum_prod_type]
  refine Finset.sum_congr rfl fun s _ => Finset.sum_congr rfl fun r _ => congrArg f (Fin.ext ?_)
  show r.val + 512 * s.val = s.val * 512 + r.val
  omega

/-- Over reals, scaling the total is scaling each block's sum: distributivity, with the coercions pushed out. -/
theorem real_distrib (y : Fin 16 → Fin 512 → ℝ) (c : ℝ) :
    (∑ s : Fin 16, ∑ r : Fin 512, ((y s r : ℝ) : EReal)) * (c : EReal)
      = ∑ s : Fin 16, (∑ r : Fin 512, ((y s r : ℝ) : EReal)) * (c : EReal) := by
  have e1 : ∀ s : Fin 16, (∑ r : Fin 512, ((y s r : ℝ) : EReal)) = ((∑ r : Fin 512, y s r : ℝ) : EReal) :=
    fun s => (coe_sum _ _).symm
  simp only [e1]
  rw [← coe_sum, ← EReal.coe_mul, Finset.sum_mul, coe_sum]
  refine Finset.sum_congr rfl fun s _ => ?_
  rw [EReal.coe_mul]

/-! ## The blocks in the whole array -/

/-- Entry `(r, q)` of block `s` is entry `(512 * s + r, q)` of the whole array: where the reference's row sum reads. -/
theorem block_entry (X : (⟨Cert.ReferenceIdeal.S8192x256, .f32⟩ : BufTy).Contents (Elt Ideal)) (s : Fin 16) (r : Fin 512)
    (q : Fin 256) (h : Layout.Tiles ⟨2, ![512, 256]⟩ ⟨2, ![8192, 256]⟩ 0 16) :
    Layout.block ⟨2, ![512, 256]⟩ ⟨2, ![8192, 256]⟩ 0 16 s X h (ix2 r q)
      = X (Cert.ReferenceIdeal.Read.idx_main_v0 (Cert.ReferenceIdeal.Read.idx_main_v1 (ix2 (0 : Fin 1) q))
            ⟨s.val * 512 + r.val, by omega⟩) := by
  rw [Layout.block_apply]
  refine congrArg X (funext fun a => Fin.ext ?_)
  match a with
  | ⟨0, _⟩ => rfl
  | ⟨1, _⟩ => rfl

/-! ## The equation -/

open Cert.ReferenceIdeal.Read in
theorem result_eq (m : (ℓ : Loc Cert.KernelIdeal.nD Cert.KernelIdeal.τ Cert.KernelIdeal.sig) → Buf (Elt Ideal) ℓ)
    (X : (⟨Cert.ReferenceIdeal.S8192x256, .f32⟩ : BufTy).Contents (Elt Ideal))
    (hpre : Cert.Pre_KernelIdeal m)
    (hblk : ∀ c : Dev Cert.KernelIdeal.nD, m ((c.tc : Thread Cert.KernelIdeal.nD Cert.KernelIdeal.τ).loc Cert.KernelIdeal.main_arg0) = Layout.block ⟨2, ![512, 256]⟩ ⟨2, ![8192, 256]⟩ 0 16 c X) :
    Cert.ReferenceIdeal.Read.val_main_v3 (F := Ideal) X = Cert.KernelIdeal.Mean.outv (F := Ideal) m := by
  funext j
  obtain ⟨u, q, rfl⟩ : ∃ (u : Fin 1) (q : Fin 256), j = ix2 u q := ⟨j 0, j 1, eq_ix2 j⟩
  obtain rfl : u = 0 := Subsingleton.elim _ _
  -- every entry a block holds is a real
  have hreal : ∀ (s : Fin 16) (r : Fin 512), ∃ y : ℝ,
      X (idx_main_v0 (idx_main_v1 (ix2 (0 : Fin 1) q)) ⟨s.val * 512 + r.val, by omega⟩) = (y : EReal) := by
    intro s r
    obtain ⟨y, hy⟩ := real_of_pre _ (hpre s) (ix2 r q)
    refine ⟨y, ?_⟩
    rw [← block_entry X s r q (by decide), ← hblk s]
    exact hy
  choose y hy using hreal
  -- the kernel's side: the sum over the blocks of each block's scaled column sum
  have hK : outv (F := Ideal) m (ix2 (0 : Fin 1) q)
      = ∑ s : Fin 16, (∑ r : Fin 512, ((y s r : ℝ) : EReal)) * (((1 / 8192 : ℝ)) : EReal) := by
    unfold outv
    rw [pay2_apply]
    refine Finset.sum_congr rfl fun s _ => ?_
    show k0_pay1 (F := Ideal) (m ((Dev.tc s : Thread nD τ).loc main_arg0)) (ix2 (0 : Fin 1) q) = _
    rw [pay1_apply, ofBits_scale]
    refine congrArg (· * _) (Finset.sum_congr rfl fun r _ => ?_)
    rw [hblk s, block_entry X s r q]
    exact hy s r
  -- the reference's side: the whole column sum divided by the row count
  have hR : val_main_v3 (F := Ideal) X (ix2 (0 : Fin 1) q)
      = (∑ s : Fin 16, ∑ r : Fin 512, ((y s r : ℝ) : EReal)) * (((1 / 8192 : ℝ)) : EReal) := by
    rw [val_main_v3_apply, val_main_v1_apply, val_main_v0_apply, val_main_v2_apply, val_main_cst_0_apply,
      val_main_cst_apply]
    simp only [Ideal.hostDivf_def, Ideal.ofBits_def]
    rw [ofBits_count, Ideal.ofBits_zero_f32, zero_add, Ideal.div_coe (by norm_num : (8192 : ℝ) ≠ 0)]
    refine congrArg (· * _) ?_
    rw [sum_rows]
    exact Finset.sum_congr rfl fun s _ => Finset.sum_congr rfl fun r _ => hy s r
  rw [hR, hK]
  exact real_distrib y _

end Cert.MeanValue

end
-- ==== Proof.lean ====
/-
  The column mean of an array of 8192 rows cut into sixteen blocks of rows, one per device. Each device sums its block
  down the columns and scales by 1/8192; the sixteen scaled rows are gathered on every device and summed. Every run of
  the program, over the words and over the extended reals, terminates with the argument blocks unchanged; and over the
  extended reals, on finite inputs, every device ends with the whole array's column sums divided by 8192, which is what
  the one-device reference ends with.
-/
import proofs.«900953_g7700000000000954_dist_mean_ax0_shard0_i_m512_n256_v7x_i16_f32_1_alg».proof.Defs
import proofs.«900953_g7700000000000954_dist_mean_ax0_shard0_i_m512_n256_v7x_i16_f32_1_alg».proof.Proof.Gen.Kernel
import proofs.«900953_g7700000000000954_dist_mean_ax0_shard0_i_m512_n256_v7x_i16_f32_1_alg».proof.Proof.Gen.Kernel.Skeleton
import proofs.«900953_g7700000000000954_dist_mean_ax0_shard0_i_m512_n256_v7x_i16_f32_1_alg».proof.Proof.Gen.Kernel.Launch
import proofs.«900953_g7700000000000954_dist_mean_ax0_shard0_i_m512_n256_v7x_i16_f32_1_alg».proof.Proof.Gen.Kernel.Points
import proofs.«900953_g7700000000000954_dist_mean_ax0_shard0_i_m512_n256_v7x_i16_f32_1_alg».proof.Proof.Gen.Kernel.Frame
import proofs.«900953_g7700000000000954_dist_mean_ax0_shard0_i_m512_n256_v7x_i16_f32_1_alg».proof.Proof.Gen.KernelIdeal
import proofs.«900953_g7700000000000954_dist_mean_ax0_shard0_i_m512_n256_v7x_i16_f32_1_alg».proof.Proof.Gen.KernelIdeal.Skeleton
import proofs.«900953_g7700000000000954_dist_mean_ax0_shard0_i_m512_n256_v7x_i16_f32_1_alg».proof.Proof.Gen.KernelIdeal.Launch
import proofs.«900953_g7700000000000954_dist_mean_ax0_shard0_i_m512_n256_v7x_i16_f32_1_alg».proof.Proof.Gen.KernelIdeal.Points
import proofs.«900953_g7700000000000954_dist_mean_ax0_shard0_i_m512_n256_v7x_i16_f32_1_alg».proof.Proof.Gen.KernelIdeal.Frame
import proofs.«900953_g7700000000000954_dist_mean_ax0_shard0_i_m512_n256_v7x_i16_f32_1_alg».proof.Proof.Gen.ReferenceIdeal
import proofs.«900953_g7700000000000954_dist_mean_ax0_shard0_i_m512_n256_v7x_i16_f32_1_alg».proof.Proof.Gen.Pre_finite_inputs_Kernel
import proofs.«900953_g7700000000000954_dist_mean_ax0_shard0_i_m512_n256_v7x_i16_f32_1_alg».proof.Proof.Gen.Pre_finite_inputs_ReferenceIdeal
import proofs.«900953_g7700000000000954_dist_mean_ax0_shard0_i_m512_n256_v7x_i16_f32_1_alg».proof.Proof.Body
import proofs.«900953_g7700000000000954_dist_mean_ax0_shard0_i_m512_n256_v7x_i16_f32_1_alg».proof.Proof.LaunchGhost
import proofs.«900953_g7700000000000954_dist_mean_ax0_shard0_i_m512_n256_v7x_i16_f32_1_alg».proof.Proof.Launch
import proofs.«900953_g7700000000000954_dist_mean_ax0_shard0_i_m512_n256_v7x_i16_f32_1_alg».proof.Proof.BitsBody
import proofs.«900953_g7700000000000954_dist_mean_ax0_shard0_i_m512_n256_v7x_i16_f32_1_alg».proof.Proof.BitsLaunchGhost
import proofs.«900953_g7700000000000954_dist_mean_ax0_shard0_i_m512_n256_v7x_i16_f32_1_alg».proof.Proof.BitsLaunch
import proofs.«900953_g7700000000000954_dist_mean_ax0_shard0_i_m512_n256_v7x_i16_f32_1_alg».proof.Proof.Value
import proofs.«900953_g7700000000000954_dist_mean_ax0_shard0_i_m512_n256_v7x_i16_f32_1_alg».proof.Proof.Gen.ReferenceIdeal.Run
import proofs.«900953_g7700000000000954_dist_mean_ax0_shard0_i_m512_n256_v7x_i16_f32_1_alg».proof.Proof.Gen.ReferenceIdeal.Read
import Idealize.ShloMosaic.Adequacy
import Idealize.ShloMosaic.Init

noncomputable section

/-! ## The claims -/

namespace Cert.Proof.MeanClaims

open Idealize.ShloMosaic Idealize.SL.Sem

/-- Over the words: every run terminates and leaves each device's argument block as it was (the run's statement about
    the result array is dropped). -/
theorem frame_k : Cert.frame_Kernel := fun m ρ _ =>
  (θ_run (Cert.Kernel.defs (F := Bits)) _ _).mono (fun _ h c => (h c).2)
    (Cert.Kernel.Mean.run_values (F := Bits) m ρ (Cert.Kernel.Mean.body_obligation m ρ) (Cert.Kernel.Mean.G m)
      Cert.Kernel.Mean.u₀ (Cert.Kernel.Mean.hu0 m) (Cert.Kernel.Mean.glob m))

/-- Over the extended reals: the same. -/
theorem frame_ki : Cert.frame_KernelIdeal := fun m ρ _ =>
  (θ_run (Cert.KernelIdeal.defs (F := Ideal)) _ _).mono (fun _ h c => (h c).2)
    (Cert.KernelIdeal.Mean.run_values (F := Ideal) m ρ (Cert.KernelIdeal.Mean.body_obligation m ρ)
      (Cert.KernelIdeal.Mean.G m) Cert.KernelIdeal.Mean.u₀ (Cert.KernelIdeal.Mean.hu0 m) (Cert.KernelIdeal.Mean.glob m))

/-- The reference's run leaves its argument array as it was. -/
theorem frame_ri : Cert.frame_ReferenceIdeal := fun m ρ _ =>
  (θ_run (Cert.ReferenceIdeal.defs (F := Ideal)) _ _).mono (fun _ h c => (h c).2)
    (Cert.ReferenceIdeal.Value.run (F := Ideal) m ρ)

/-- No operation of the program was rewritten for the reading over the extended reals: nothing to preserve. -/
theorem preserves : Cert.preserves_Kernel_KernelIdeal := trivial

/-- Over the extended reals, from finite blocks that are the sixteen row blocks of the reference's array: every device
    ends with the column sums of the gathered scaled rows, the reference with the whole column sums divided by 8192,
    and the two are one array of reals (`Cert.MeanValue.result_eq`). -/
theorem algebraic : Cert.algebraic_KernelIdeal_ReferenceIdeal := by
  intro m ρ m' ρ' hpre hagree
  refine ⟨(Cert.KernelIdeal.Mean.outv (F := Ideal) m :
      Buf (Elt Ideal) (((0 : Dev Cert.ReferenceIdeal.nD).tc : Thread Cert.ReferenceIdeal.nD Cert.ReferenceIdeal.τ).loc
        Cert.ReferenceIdeal.main_v3)), ?_, ?_⟩
  · exact (θ_run (Cert.KernelIdeal.defs (F := Ideal)) _ _).mono (fun _ h c => ⟨(h c).1, (h c).2⟩)
      (Cert.KernelIdeal.Mean.run_values (F := Ideal) m ρ (Cert.KernelIdeal.Mean.body_obligation m ρ)
        (Cert.KernelIdeal.Mean.G m) Cert.KernelIdeal.Mean.u₀ (Cert.KernelIdeal.Mean.hu0 m) (Cert.KernelIdeal.Mean.glob m))
  · refine (θ_run (Cert.ReferenceIdeal.defs (F := Ideal)) _ _).mono (fun _ h => ⟨(h 0).1.trans ?_, (h 0).2⟩)
      (Cert.ReferenceIdeal.Value.run (F := Ideal) m' ρ')
    exact (Cert.ReferenceIdeal.Read.val_main_v3_eq (F := Ideal) _).trans
      (Cert.MeanValue.result_eq m
        (m' (((0 : Dev Cert.ReferenceIdeal.nD).tc : Thread Cert.ReferenceIdeal.nD Cert.ReferenceIdeal.τ).loc
          Cert.ReferenceIdeal.main_arg0)) hpre hagree)

end Cert.Proof.MeanClaims

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    MeanClaims.frame_k, MeanClaims.frame_ki, MeanClaims.frame_ri, MeanClaims.preserves, MeanClaims.algebraic⟩

end Cert.Proof

end
